-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S500x1024 : Shape := ⟨2, ![500, 1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S500x1024 : S_.BroadcastsInDim S500x1024 (![] : Fin 0 → Fin S500x1024.rank)
  reducesTo_S500x1024_S_d0_1 : S500x1024.ReducesTo [0, 1] S_

variable [Facts]

def fn {F : FTy → Type} [FloatOps F] (main_arg0 : FVec F S512x1024 .f32) (main_arg1 : FVec F S500x1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S500x1024 .f32 := Host.absf main_arg1
  let main_cst_0 : FVec F S_ .f32 := constant S_ .f32 0x7F800000#32
  let main_v5 : FVec F S500x1024 .f32 := broadcastInDim S500x1024 ![] bcast_S_S500x1024 main_cst_0
  let main_v6 : IVec S500x1024 1 := cmpf .olt main_v4 main_v5
  let main_c_1 : IVec S_ 1 := constantI S_ 1 1#1
  let main_v7 : IVec S_ 1 := (fun x v => Host.reduce IntOp.andi x v reducesTo_S500x1024_S_d0_1 h_S_) main_v6 main_c_1
  let main_v8 : IVec S_ 1 := andi main_v3 main_v7
  main_v8
-- ==== Kernel.lean ====
abbrev S512x1024 : Shape := ⟨2, ![512, 1024]⟩
abbrev S500x1024 : Shape := ⟨2, ![500, 1024]⟩
abbrev S512x500 : Shape := ⟨2, ![512, 500]⟩
abbrev S512x100x5 : Shape := ⟨3, ![512, 100, 5]⟩
abbrev S512x5x100 : Shape := ⟨3, ![512, 5, 100]⟩
abbrev S512x100 : Shape := ⟨2, ![512, 100]⟩
abbrev S128x5x100 : Shape := ⟨3, ![128, 5, 100]⟩
abbrev S128x100 : Shape := ⟨2, ![128, 100]⟩
abbrev S128x128x100 : Shape := ⟨3, ![128, 128, 100]⟩
abbrev S128x1x100 : Shape := ⟨3, ![128, 1, 100]⟩
abbrev S1x128x100 : Shape := ⟨3, ![1, 128, 100]⟩
abbrev S512x1124 : Shape := ⟨2, ![512, 1124]⟩

abbrev nBuf : Space → Nat
  | .hbm => 7
  | .vmem => 10
  | .smem => 0
  | _ => 0

abbrev bufTy : (tb : Table) → Fin (tcTables nBuf tb) → BufTy
  | .hbm, ⟨0, _⟩ => ⟨S512x1024, .f32⟩
  | .hbm, ⟨1, _⟩ => ⟨S500x1024, .f32⟩
  | .hbm, ⟨2, _⟩ => ⟨S512x500, .f32⟩
  | .hbm, ⟨3, _⟩ => ⟨S512x100x5, .f32⟩
  | .hbm, ⟨4, _⟩ => ⟨S512x5x100, .f32⟩
  | .hbm, ⟨5, _⟩ => ⟨S512x100, .f32⟩
  | .hbm, ⟨6, _⟩ => ⟨S512x1124, .f32⟩
  | .local _ .vmem, ⟨0, _⟩ => ⟨S512x1024, .f32⟩
  | .local _ .vmem, ⟨1, _⟩ => ⟨S500x1024, .f32⟩
  | .local _ .vmem, ⟨2, _⟩ => ⟨S512x500, .f32⟩
  | .local _ .vmem, ⟨3, _⟩ => ⟨S128x5x100, .f32⟩
  | .local _ .vmem, ⟨4, _⟩ => ⟨S128x5x100, .f32⟩
  | .local _ .vmem, ⟨5, _⟩ => ⟨S128x5x100, .f32⟩
  | .local _ .vmem, ⟨6, _⟩ => ⟨S128x5x100, .f32⟩
  | .local _ .vmem, ⟨7, _⟩ => ⟨S128x100, .f32⟩
  | .local _ .vmem, ⟨8, _⟩ => ⟨S128x100, .f32⟩
  | .local _ .vmem, ⟨9, _⟩ => ⟨S128x100, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_scratch0 : Ref sig .tc := ⟨.vmem, 9, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S500x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v68 : BitVec 1 := Scalar.cmpi .eq arg1 c3_i32
  let v69 : BitVec 32 := Scalar.extui v68
  let c0_i32_32 : BitVec 32 := 0#32
  let v70 : BitVec 1 := Scalar.cmpi .ne v69 c0_i32_32
  v70

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x5x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x5x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x100 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S500x1024_S500x1024_0_0 : ∀ a, (![0, 0] : Fin 2 → Nat) a + S500x1024.size a ≤ S500x1024.size a
  h_S500x1024 : 0 < S500x1024.numel
  inb_S512x500_S512x500_0_0 : ∀ a, (![0, 0] : Fin 2 → Nat) a + S512x500.size a ≤ S512x500.size a
  h_S512x500 : 0 < S512x500.numel
  shapeCasts_S512x500_S512x100x5 : S512x500.ShapeCasts S512x100x5
  transposes_S512x100x5_S512x5x100_0_2_1 : S512x100x5.Transposes [0, 2, 1] S512x5x100
  inb_S128x100_S128x100_0_0 : ∀ a, (![0, 0] : Fin 2 → Nat) a + S128x100.size a ≤ S128x100.size a
  h_S128x100 : 0 < S128x100.numel
  shapeCasts_S128x100_S128x100 : S128x100.ShapeCasts S128x100
  inb_S128x5x100_S128x1x100_0_0_0 : ∀ a, (![0, 0, 0] : Fin 3 → Nat) a + S128x1x100.size a ≤ S128x5x100.size a
  h_S128x1x100 : 0 < S128x1x100.numel
  shapeCasts_S128x1x100_S128x100 : S128x1x100.ShapeCasts S128x100
  shapeCasts_S128x100_S128x1x100 : S128x100.ShapeCasts S128x1x100
  shapeCasts_S128x100_S1x128x100 : S128x100.ShapeCasts S1x128x100
  broadcasts_S128x1x100_S128x128x100 : S128x1x100.Broadcasts S128x128x100
  broadcasts_S1x128x100_S128x128x100 : S1x128x100.Broadcasts S128x128x100
  inb_S128x5x100_S128x1x100_0_1_0 : ∀ a, (![0, 1, 0] : Fin 3 → Nat) a + S128x1x100.size a ≤ S128x5x100.size a
  inb_S128x5x100_S128x1x100_0_2_0 : ∀ a, (![0, 2, 0] : Fin 3 → Nat) a + S128x1x100.size a ≤ S128x5x100.size a
  inb_S128x5x100_S128x1x100_0_3_0 : ∀ a, (![0, 3, 0] : Fin 3 → Nat) a + S128x1x100.size a ≤ S128x5x100.size a
  inb_S128x5x100_S128x1x100_0_4_0 : ∀ a, (![0, 4, 0] : Fin 3 → Nat) a + S128x1x100.size a ≤ S128x5x100.size a
  reduces_S128x128x100_S128x100 : S128x128x100.Reduces [1] S128x100
  concatenates_S512x1024_S512x100_S512x1124_d1 : Shape.Concatenates [S512x1024, S512x100] S512x1124 1
  dot_S512x1024_S500x1024_S512x500_1_1_0_0_n_n_wf : DotDims.WF S512x1024 S500x1024 S512x500 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .f32 = 32 ∨ (Rect.block (s := S512x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x1024.size a ≤ S500x1024.size a
  hwx0_1 : ∀ i : grid0.Coords, EltTy.bits .f32 = 32 ∨ (Rect.block (s := S500x1024) S500x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x500.size a ≤ S512x500.size a
  hwx0_2 : ∀ i : grid0.Coords, EltTy.bits .f32 = 32 ∨ (Rect.block (s := S512x500) S512x500.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x5x100.size a ≤ S512x5x100.size a
  hwx1_0 : ∀ i : grid1.Coords, EltTy.bits .f32 = 32 ∨ (Rect.block (s := S512x5x100) S128x5x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x5x100.size a ≤ S512x5x100.size a
  hwx1_1 : ∀ i : grid1.Coords, EltTy.bits .f32 = 32 ∨ (Rect.block (s := S512x5x100) S128x5x100.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x100.size a ≤ S512x100.size a
  hwx1_2 : ∀ i : grid1.Coords, EltTy.bits .f32 = 32 ∨ (Rect.block (s := S512x100) S128x100.size (cc1_transform_2 i) (hinb1_2 i)).WholeWords (EltTy.packing .f32)

variable [Facts₀]

def dot_S512x1024_S500x1024_S512x500_1_1_0_0_n_n : DotDims S512x1024 S500x1024 S512x500 where
  lhsContracting := [1]
  rhsContracting := [1]
  lhsNonContracting := [0]
  rhsNonContracting := [0]
  lhsBatch := []
  rhsBatch := []
  wf := dot_S512x1024_S500x1024_S512x500_1_1_0_0_n_n_wf

abbrev win0_0 : Pipeline.Window sig grid0 :=
  Pipeline.Window.ofSpec (Memref.whole main_arg0) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S500x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x500.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S128x5x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x5x100.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x100.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S512x1024 : Shape := ⟨2, ![512, 1024]⟩
abbrev S500x1024 : Shape := ⟨2, ![500, 1024]⟩
abbrev S512x500 : Shape := ⟨2, ![512, 500]⟩
abbrev S512x100x5 : Shape := ⟨3, ![512, 100, 5]⟩
abbrev S512x1x100x5 : Shape := ⟨4, ![512, 1, 100, 5]⟩
abbrev S1x512x100x5 : Shape := ⟨4, ![1, 512, 100, 5]⟩
abbrev S512x512x100x5 : Shape := ⟨4, ![512, 512, 100, 5]⟩
abbrev S_ : Shape := ⟨0, ![]⟩
abbrev S512x512x100 : Shape := ⟨3, ![512, 512, 100]⟩
abbrev S512x100 : Shape := ⟨2, ![512, 100]⟩
abbrev S512x1124 : Shape := ⟨2, ![512, 1124]⟩

abbrev nBuf : Space → Nat
  | .hbm => 20
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S500x1024, .f32⟩
  | .hbm, ⟨2, _⟩ => ⟨S512x500, .f32⟩
  | .hbm, ⟨3, _⟩ => ⟨S512x100x5, .f32⟩
  | .hbm, ⟨4, _⟩ => ⟨S512x1x100x5, .f32⟩
  | .hbm, ⟨5, _⟩ => ⟨S1x512x100x5, .f32⟩
  | .hbm, ⟨6, _⟩ => ⟨S512x512x100x5, .f32⟩
  | .hbm, ⟨7, _⟩ => ⟨S512x512x100x5, .f32⟩
  | .hbm, ⟨8, _⟩ => ⟨S512x512x100x5, .f32⟩
  | .hbm, ⟨9, _⟩ => ⟨S512x512x100x5, .f32⟩
  | .hbm, ⟨10, _⟩ => ⟨S_, .f32⟩
  | .hbm, ⟨11, _⟩ => ⟨S512x512x100, .f32⟩
  | .hbm, ⟨12, _⟩ => ⟨S512x512x100, .f32⟩
  | .hbm, ⟨13, _⟩ => ⟨S512x512x100, .f32⟩
  | .hbm, ⟨14, _⟩ => ⟨S_, .f32⟩
  | .hbm, ⟨15, _⟩ => ⟨S512x100, .f32⟩
  | .hbm, ⟨16, _⟩ => ⟨S_, .f32⟩
  | .hbm, ⟨17, _⟩ => ⟨S512x100, .f32⟩
  | .hbm, ⟨18, _⟩ => ⟨S512x100, .f32⟩
  | .hbm, ⟨19, _⟩ => ⟨S512x1124, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  shapeCasts_S512x500_S512x100x5 : S512x500.ShapeCasts S512x100x5
  bcast_S512x100x5_S512x1x100x5_0_2_3 : S512x100x5.BroadcastsInDim S512x1x100x5 (![0, 2, 3] : Fin 3 → Fin S512x1x100x5.rank)
  bcast_S512x100x5_S1x512x100x5_1_2_3 : S512x100x5.BroadcastsInDim S1x512x100x5 (![1, 2, 3] : Fin 3 → Fin S1x512x100x5.rank)
  bcast_S512x1x100x5_S512x512x100x5_0_1_2_3 : S512x1x100x5.BroadcastsInDim S512x512x100x5 (![0, 1, 2, 3] : Fin 4 → Fin S512x512x100x5.rank)
  bcast_S1x512x100x5_S512x512x100x5_0_1_2_3 : S1x512x100x5.BroadcastsInDim S512x512x100x5 (![0, 1, 2, 3] : Fin 4 → Fin S512x512x100x5.rank)
  reducesTo_S512x512x100x5_S512x512x100_d3 : S512x512x100x5.ReducesTo [3] S512x512x100
  h_S_ : 0 < S_.numel
  reducesTo_S512x512x100_S512x100_d1 : S512x512x100.ReducesTo [1] S512x100
  bcast_S_S512x100 : S_.BroadcastsInDim S512x100 (![] : Fin 0 → Fin S512x100.rank)
  concatenates_S512x1024_S512x100_S512x1124_d1 : Shape.Concatenates [S512x1024, S512x100] S512x1124 1
  dot_S512x1024_S500x1024_S512x500_1_1_0_0_n_n_wf : DotDims.WF S512x1024 S500x1024 S512x500 [1] [1] [0] [0] [] []

variable [Facts₀]

def dot_S512x1024_S500x1024_S512x500_1_1_0_0_n_n : DotDims S512x1024 S500x1024 S512x500 where
  lhsContracting := [1]
  rhsContracting := [1]
  lhsNonContracting := [0]
  rhsNonContracting := [0]
  lhsBatch := []
  rhsBatch := []
  wf := dot_S512x1024_S500x1024_S512x500_1_1_0_0_n_n_wf

class Facts : Prop extends Facts₀ where

variable [Facts]
-- ==== Proof.KB.ProjRegion.lean ====
/-
  The projection region: one grid point; the body loads the whole of x (512×1024) and of W (500×1024),
  forms the product x·Wᵀ (512×500) and stores it whole into the output block. Here: what the output's
  staging buffer holds after the body as a function of the two input blocks, the body's triple, the
  region's proof data at any entry contents `V`, and the body obligation at the one point.
-/
import proofs.«136051_j51926154609300_1_alg».proof.Proof.Gen.Kernel.Launch
import proofs.«136051_j51926154609300_1_alg».proof.Proof.Gen.Kernel.Skeleton
import proofs.«136051_j51926154609300_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents `V`. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three whole-buffer rectangles the body reads and writes through. -/
abbrev rX : Rect S512x1024 := Rect.unit (s := S512x1024) ![0, 0] S512x1024.size inb_S512x1024_S512x1024_0_0
abbrev rW : Rect S500x1024 := Rect.unit (s := S500x1024) ![0, 0] S500x1024.size inb_S500x1024_S500x1024_0_0
abbrev rP : Rect S512x500 := Rect.unit (s := S512x500) ![0, 0] S512x500.size inb_S512x500_S512x500_0_0

/-- The output block after the body: the one store's payload, the product of the two loaded blocks. -/
def prod (x : Vec F S512x1024 .f32) (w : Vec F S500x1024 .f32) : Vec F S512x500 .f32 :=
  View.canon [⟨rP, k0_pay1 (View.ld x rX) (View.ld w rW)⟩]

/-- The region's proof data at entry contents `V`: inputs stay at their blocks, the output block is the product. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => prod (blk V c 0 t) (blk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = prod (blk V c 0 t) (blk V c 1 t) := by dsimp only [dat]

/-! ## The two inputs as the body finds them -/

/-- The block of x is in its staging buffer when the body runs: the one point fetches it, and the window is
    not cut, so the fetch fills the whole buffer with the array's block. -/
theorem x_found (c : Dev nD) (t : Fin cfg0.N) (d) : (dat V c).before 0 t d = blk V c 0 t := by
  rw [(dat V c).before_fetched 0 t (fetch0_0 t) d]
  unfold Dat.fetched Dat.blockOf blk
  rw [A_eq]
  rfl

/-- Likewise the block of W. -/
theorem w_found (c : Dev nD) (t : Fin cfg0.N) (d) : (dat V c).before 1 t d = blk V c 1 t := by
  rw [(dat V c).before_fetched 1 t (fetch0_1 t) d]
  unfold Dat.fetched Dat.blockOf blk
  rw [A_eq]
  rfl

/-! ## The one store covers the output block -/

/-- A single store through the whole-buffer rectangle reaches every index of the 512×500 block. -/
theorem store_covers (p : Vec F S512x500 .f32) (y : S512x500.Idx) :
    ∃ pc ∈ ([⟨rP, p⟩] : List (View.Piece (Elt F) S512x500 .f32)), y ∈ pc.1.set :=
  View.cover_of_tiled [⟨rP, p⟩] S512x500.size (by rfl) y

/-! ## The body's triple -/

set_option maxHeartbeats 1000000 in
/-- The matmul body on three whole staging memrefs — x's at contents `x`, W's at contents `w`, the output's at
    anything — runs to a continuation that gets the two inputs back unchanged and the output holding `prod x w`:
    two loads, a load of the output whose value is dropped, one store of the product over the whole block. -/
theorem product_triple (c : Dev nD) (E : Set ℕ) (i : grid0.Coords)
    (xM : Memref sig .tc .vmem S512x1024 .f32) (hxM : xM.IsWhole)
    (wM : Memref sig .tc .vmem S500x1024 .f32) (hwM : wM.IsWhole)
    (pM : Memref sig .tc .vmem S512x500 .f32) (hpM : pM.IsWhole)
    (x : Vec F S512x1024 .f32) (w : Vec F S500x1024 .f32) (K : PUnit → sProp 𝕄) :
    iprop(owns (c : Thread nD τ) xM fullShare x ∗ owns (c : Thread nD τ) wM fullShare w
        ∗ (∃ d, owns (c : Thread nD τ) pM fullShare d)
        ∗ (iprop(owns (c : Thread nD τ) xM fullShare x ∗ owns (c : Thread nD τ) wM fullShare w
            ∗ owns (c : Thread nD τ) pM fullShare (prod x w)) -∗ K ⟨⟩))
      ⊢ wp frame (wpE (defs₀ (F := F)) Variants.none c none) E (cc0__matmul_kernel i xM hxM wM hwM pM hpM) K := by
  simp only [cc0__matmul_kernel_eq_skeleton]; unfold cc0__matmul_kernel_skel
  unfold owns
  iintro ⟨⟨%fx, %hfx, Hx⟩, ⟨%fw, %hfw, Hw⟩, ⟨%d, %fp, -, Hp⟩, Hk⟩
  subst hfx hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Hp
  ipureintro
  exact View.read_writes_eq_canon _ _ _ (store_covers _)

/-! ## The body at the point -/

/-- What the pipeline hands the body at point `t`: the invariant, what the core owes, and the three current staging
    buffers, each at what the schedule left in it. -/
def handed (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- What the body hands back: the same invariant and debt, the inputs' buffers at their blocks, the output's at the
    product of the two blocks. -/
def returned (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at the point: the two input buffers hold the blocks of x and W (`x_found`, `w_found`), so the triple
    applies at those blocks; the invariant and the debt are not touched by the body and pass through. -/
theorem body_at (c : Dev nD) (t : Fin cfg0.N) :
    handed V c t ⊢ wp frame (wpE (defs₀ (F := F)) Variants.none c none) Set.univ (bodyAt0 t) (fun _ => returned V c t) := by
  unfold handed returned bodyAt0
  simp only [x_found, w_found]
  rw [show (dat V c).Φ t.succ = (dat V c).Φ t.castSucc from rfl,
    show (dat V c).owesAt () t.succ = (dat V c).owesAt () t.castSucc from rfl,
    after_0, after_1, after_2]
  iintro ⟨HΦ, Ho, ⟨%dx, Hx⟩, ⟨%dw, Hw⟩, ⟨%dp, Hp⟩⟩
  iapply (product_triple c Set.univ _ _ _ _ _ _ _ (blk V c 0 t) (blk V c 1 t) _)
  isplitl [Hx]; · iexact Hx
  isplitl [Hw]; · iexact Hw
  isplitl [Hp]; · iexists _; iexact Hp
  iintro ⟨Hx, Hw, Hp⟩
  isplitl [HΦ]; · iexact HΦ
  isplitl [Ho]; · iexact Ho
  isplitl [Hx]; · iexact Hx
  isplitl [Hw]; · iexact Hw
  iexact Hp

/-- The body obligation of the projection region, at its one point. -/
theorem body_obligation (c : Dev nD) : BodyObligation (dat (F := F) V c) (defs₀ (F := F)) Variants.none () Set.univ := fun t => by
  rw [bigSep_W0, bigSep_W0]
  exact body_at V c t

end Cert.Kernel.Proj

end
-- ==== Proof.KB.PairBody.lean ====
/-
  The pairwise region's body on any whole staging memrefs, by the three control cases the 4×4 grid meets:
  the first column of a row of blocks (the accumulator is zeroed, then updated), a middle column (updated),
  the last column (updated, then the row block's result is the accumulator less one). One update adds to the
  accumulator the sums over the 128 rows j of the second block of exp(−Σₖ |p_i[k] − p_j[k]|).
-/
import proofs.«136051_j51926154609300_1_alg».proof.Proof.Gen.Kernel.Launch
import proofs.«136051_j51926154609300_1_alg».proof.Proof.Gen.Kernel.Skeleton
import proofs.«136051_j51926154609300_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The five slices `[:, k, :]` of a 128×5×100 block, k = 0..4, and the whole 128×100 buffer. -/
abbrev rK0 : Rect S128x5x100 := Rect.unit (s := S128x5x100) ![0, 0, 0] S128x1x100.size inb_S128x5x100_S128x1x100_0_0_0
abbrev rK1 : Rect S128x5x100 := Rect.unit (s := S128x5x100) ![0, 1, 0] S128x1x100.size inb_S128x5x100_S128x1x100_0_1_0
abbrev rK2 : Rect S128x5x100 := Rect.unit (s := S128x5x100) ![0, 2, 0] S128x1x100.size inb_S128x5x100_S128x1x100_0_2_0
abbrev rK3 : Rect S128x5x100 := Rect.unit (s := S128x5x100) ![0, 3, 0] S128x1x100.size inb_S128x5x100_S128x1x100_0_3_0
abbrev rK4 : Rect S128x5x100 := Rect.unit (s := S128x5x100) ![0, 4, 0] S128x1x100.size inb_S128x5x100_S128x1x100_0_4_0
abbrev rA : Rect S128x100 := Rect.unit (s := S128x100) ![0, 0] S128x100.size inb_S128x100_S128x100_0_0

/-- The accumulator as the first column of a row of blocks resets it: zeros. -/
def accZero : Vec F S128x100 .f32 := k1_pay3 (F := F)

/-- One point's update: the accumulator `s` plus, for each row i of the first block and lane o, the sum over the
    rows j of the second block of exp(0 − Σₖ |x0[i,k,o] − x1[j,k,o]|). -/
def accStep (x0 x1 : Vec F S128x5x100 .f32) (s : Vec F S128x100 .f32) : Vec F S128x100 .f32 :=
  k1_pay1 (k1_pay4 (View.ld x0 rK0) (View.ld x1 rK0) (View.ld x0 rK1) (View.ld x1 rK1)) (k1_pay5 (View.ld x0 rK2) (View.ld x1 rK2))
    (View.ld x0 rK3) (View.ld x1 rK3) (View.ld x0 rK4) (View.ld x1 rK4) s

/-- What the last column stores into the output block: the accumulator less one. -/
def result (s : Vec F S128x100 .f32) : Vec F S128x100 .f32 := k1_pay2 s

/-- The body's two branch conditions, from the grid coordinates: "second coordinate is 0", "second coordinate is 3". -/
abbrev condFirst (i : grid1.Coords) : Prop := (Scalar.cmpi .ne (Scalar.extui (Scalar.cmpi .eq (BitVec.ofNat 32 (i 1).val) 0#32)) 0#32) = 1#1
abbrev condLast (i : grid1.Coords) : Prop := k1_cond2 i = 1#1

theorem condFirst_iff : ∀ t : Fin cfg1.N, condFirst (grid1.coords t) ↔ t.val % 4 = 0 :=
  (by decide +kernel : ∀ t : Fin grid1.N, condFirst (grid1.coords t) ↔ t.val % 4 = 0)
theorem condLast_iff : ∀ t : Fin cfg1.N, condLast (grid1.coords t) ↔ t.val % 4 = 3 :=
  (by decide +kernel : ∀ t : Fin grid1.N, condLast (grid1.coords t) ↔ t.val % 4 = 3)

/-- The zero offsets of a whole 128×100 buffer, however they are spelt. -/
private theorem hz2 : (![0, 0] : Fin 2 → Nat) = fun _ => 0 := funext fun a => by fin_cases a <;> rfl

/-- A store through the whole 128×100 rectangle, last of any list of stores, covers every index of the buffer. -/
private theorem cover_rA (w : Vec F S128x100 .f32) (L : List (View.Piece (Elt F) S128x100 .f32)) :
    ∀ y, ∃ p ∈ ((⟨Rect.unit ![0, 0] S128x100.size inb_S128x100_S128x100_0_0, w⟩ : View.Piece (Elt F) S128x100 .f32) :: L), y ∈ p.1.set :=
  fun y => ⟨_, List.mem_cons_self, View.mem_set_unit_zero hz2 inb_S128x100_S128x100_0_0 y⟩

/-- First column: the accumulator, whatever it held, ends at one update of zeros; the output buffer is untouched. -/
theorem body_first (c : Dev nD) (i : grid1.Coords) (arg2 : Memref sig .tc .vmem S128x5x100 .f32) (harg2 : arg2.IsWhole) (arg3 : Memref sig .tc .vmem S128x5x100 .f32) (harg3 : arg3.IsWhole)
    (arg4 : Memref sig .tc .vmem S128x100 .f32) (harg4 : arg4.IsWhole) (arg5 : Memref sig .tc .vmem S128x100 .f32) (harg5 : arg5.IsWhole)
    (hc0 : condFirst i) (hc1 : ¬condLast i) (x0 x1 : Vec F S128x5x100 .f32) (xo : Vec F S128x100 .f32) (E : Set ℕ) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) arg5 fullShare s)
        ∗ (iprop(owns (c : Thread nD τ) arg2 fullShare x0 ∗ owns (c : Thread nD τ) arg3 fullShare x1 ∗ owns (c : Thread nD τ) arg4 fullShare xo
            ∗ owns (c : Thread nD τ) arg5 fullShare (accStep x0 x1 (accZero (F := F)))) -∗ K ⟨⟩))
      ⊢ wp frame (wpE (defs₀ (F := F)) Variants.none c none) E (cc1__pairwise_kernel i arg2 harg2 arg3 harg3 arg4 harg4 arg5 harg5) K := by
  -- the body is its sequence of loads and stores over named payloads; each buffer is opened to its raw contents
  simp only [cc1__pairwise_kernel_eq_skeleton]; unfold cc1__pairwise_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  -- the two inputs are only read: they are handed back as they were
  isplitl [H0]
  · iexists _; isplitr; · ipureintro; exact harg2.read_unread _
    iexact H0
  isplitl [H1]
  · iexists _; isplitr; · ipureintro; exact harg3.read_unread _
    iexact H1
  -- no store reaches the output buffer
  isplitl [H2]
  · iexists _; isplitr; · ipureintro; exact harg4.read_unread _
    iexact H2
  -- the accumulator: zeros stored over whatever it held, read back, then the update stored over them; the later
  -- store covers the buffer, so it reads as that store's payload, in which the read-back is the zeros
  iexists _; isplitr
  rotate_left
  · iexact HS
  · ipureintro
    sl_unfold_words
    rw [View.read_writes_eq_canon _ _ _ (cover_rA _ _)]
    rw [View.canon_cons_unit_zero (S := S128x100) hz2, View.readCov_unit_zero (S := S128x100) _ hz2]
    unfold accStep accZero
    simp only [View.readAt_eq_ld, harg2.read_unread, harg3.read_unread, View.ld_unit_zero (S := S128x100) hz2]

/-- A middle column: the accumulator at `s` ends at one update of `s`; the output buffer is untouched. -/
theorem body_mid (c : Dev nD) (i : grid1.Coords) (arg2 : Memref sig .tc .vmem S128x5x100 .f32) (harg2 : arg2.IsWhole) (arg3 : Memref sig .tc .vmem S128x5x100 .f32) (harg3 : arg3.IsWhole)
    (arg4 : Memref sig .tc .vmem S128x100 .f32) (harg4 : arg4.IsWhole) (arg5 : Memref sig .tc .vmem S128x100 .f32) (harg5 : arg5.IsWhole)
    (hc0 : ¬condFirst i) (hc1 : ¬condLast i) (x0 x1 : Vec F S128x5x100 .f32) (xo s : Vec F S128x100 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s
        ∗ (iprop(owns (c : Thread nD τ) arg2 fullShare x0 ∗ owns (c : Thread nD τ) arg3 fullShare x1 ∗ owns (c : Thread nD τ) arg4 fullShare xo
            ∗ owns (c : Thread nD τ) arg5 fullShare (accStep x0 x1 s)) -∗ K ⟨⟩))
      ⊢ wp frame (wpE (defs₀ (F := F)) Variants.none c none) E (cc1__pairwise_kernel i arg2 harg2 arg3 harg3 arg4 harg4 arg5 harg5) K := by
  -- the body is its sequence of loads and stores over named payloads; each buffer is opened to its raw contents
  simp only [cc1__pairwise_kernel_eq_skeleton]; unfold cc1__pairwise_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  -- the two inputs are only read: they are handed back as they were
  isplitl [H0]
  · iexists _; isplitr; · ipureintro; exact harg2.read_unread _
    iexact H0
  isplitl [H1]
  · iexists _; isplitr; · ipureintro; exact harg3.read_unread _
    iexact H1
  -- no store reaches the output buffer
  isplitl [H2]
  · iexists _; isplitr; · ipureintro; exact harg4.read_unread _
    iexact H2
  -- the accumulator: one covering store, whose payload is the update of what the buffer held
  iexists _; isplitr
  rotate_left
  · iexact HS
  · ipureintro
    sl_unfold_words
    rw [View.read_writes_eq_canon _ _ _ (cover_rA _ _), View.canon_unit_zero hz2]
    unfold accStep
    simp only [View.readAt_eq_ld, harg2.read_unread, harg3.read_unread, harg5.read_unread, View.ld_unit_zero (S := S128x100) hz2]

/-- The last column: the accumulator at `s` ends at one update of `s`, and the output buffer, whatever it held, at that less one. -/
theorem body_last (c : Dev nD) (i : grid1.Coords) (arg2 : Memref sig .tc .vmem S128x5x100 .f32) (harg2 : arg2.IsWhole) (arg3 : Memref sig .tc .vmem S128x5x100 .f32) (harg3 : arg3.IsWhole)
    (arg4 : Memref sig .tc .vmem S128x100 .f32) (harg4 : arg4.IsWhole) (arg5 : Memref sig .tc .vmem S128x100 .f32) (harg5 : arg5.IsWhole)
    (hc0 : ¬condFirst i) (hc1 : condLast i) (x0 x1 : Vec F S128x5x100 .f32) (s : Vec F S128x100 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (result (accStep x0 x1 s))
            ∗ owns (c : Thread nD τ) arg5 fullShare (accStep x0 x1 s)) -∗ K ⟨⟩))
      ⊢ wp frame (wpE (defs₀ (F := F)) Variants.none c none) E (cc1__pairwise_kernel i arg2 harg2 arg3 harg3 arg4 harg4 arg5 harg5) K := by
  -- the body is its sequence of loads and stores over named payloads; each buffer is opened to its raw contents
  simp only [cc1__pairwise_kernel_eq_skeleton]; unfold cc1__pairwise_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  -- the two inputs are only read: they are handed back as they were
  isplitl [H0]
  · iexists _; isplitr; · ipureintro; exact harg2.read_unread _
    iexact H0
  isplitl [H1]
  · iexists _; isplitr; · ipureintro; exact harg3.read_unread _
    iexact H1
  -- the output buffer: one covering store of the accumulator, read back after its update, less one
  isplitl [H2]
  · iexists _; isplitr
    rotate_left
    · iexact H2
    · ipureintro
      sl_unfold_words
      rw [View.read_writes_eq_canon _ _ _ (cover_rA _ _), View.canon_unit_zero hz2, View.readCov_unit_zero (S := S128x100) _ hz2]
      unfold result accStep
      simp only [View.readAt_eq_ld, harg2.read_unread, harg3.read_unread, harg5.read_unread, View.ld_unit_zero (S := S128x100) hz2]
  -- the accumulator: one covering store, whose payload is the update of what the buffer held
  iexists _; isplitr
  rotate_left
  · iexact HS
  · ipureintro
    sl_unfold_words
    rw [View.read_writes_eq_canon _ _ _ (cover_rA _ _), View.canon_unit_zero hz2]
    unfold accStep
    simp only [View.readAt_eq_ld, harg2.read_unread, harg3.read_unread, harg5.read_unread, View.ld_unit_zero (S := S128x100) hz2]

end Cert.Kernel.Pair

end
-- ==== Proof.KB.PairData.lean ====
/-
  The pairwise region's proof data at any entry contents `V`: point t = 4·a + b works on row block a (first
  input window) against row block b (second input window). The scratch accumulator after point t is one update
  of zeros when b = 0 and one update of what point t − 1 left otherwise; the output block, written back only at
  b = 3, is that accumulator less one. The invariant between points carries the accumulator at this value.
-/
import proofs.«136051_j51926154609300_1_alg».proof.Proof.Gen.Kernel.Launch
import proofs.«136051_j51926154609300_1_alg».proof.Proof.Gen.Kernel.Skeleton
import proofs.«136051_j51926154609300_1_alg».proof.Proof.Gen.Kernel.Points
import proofs.«136051_j51926154609300_1_alg».proof.Proof.KB.PairBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents `V`. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATION: the scratch after the body at point `n`. -/
def accAt (c : Dev nD) : (n : ℕ) → n < cfg1.N → Vec F S128x100 .f32
  | 0, hn => accStep (blk V c 0 ⟨0, hn⟩) (blk V c 1 ⟨0, hn⟩) (accZero (F := F))
  | n + 1, hn =>
    if (n + 1) % 4 = 0 then accStep (blk V c 0 ⟨n + 1, hn⟩) (blk V c 1 ⟨n + 1, hn⟩) (accZero (F := F))
    else accStep (blk V c 0 ⟨n + 1, hn⟩) (blk V c 1 ⟨n + 1, hn⟩) (accAt c n (Nat.lt_of_succ_lt hn))

/-- At a first column the accumulation restarts from zeros. -/
theorem accAt_first (c : Dev nD) (t : Fin cfg1.N) (h : t.val % 4 = 0) :
    accAt V c t.val t.isLt = accStep (blk V c 0 t) (blk V c 1 t) (accZero (F := F)) := by
  obtain ⟨n, hn⟩ := t
  cases n with
  | zero => rfl
  | succ n => exact (if_pos h).trans rfl

/-- Elsewhere it continues from what the point before left. -/
theorem accAt_next (c : Dev nD) (t : Fin cfg1.N) (h : ¬t.val % 4 = 0) :
    accAt V c t.val t.isLt = accStep (blk V c 0 t) (blk V c 1 t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The scratch accumulator as a memref. -/
abbrev scratchM : Memref sig .tc .vmem S128x100 .f32 := Memref.whole cc1_scratch0

/-- The scoped buffers of the other region, each whole at some contents: they ride along untouched. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f))

/-- The invariant before position `n`: before the first point every scoped buffer no window stages at anything
    (and the generator register at some state); afterwards the accumulator at what point n − 1 left. -/
def inv (c : Dev nD) : (n : ℕ) → n ≤ cfg1.N → sProp 𝕄
  | 0, _ => Pipeline.ΦA spec1 c
  | n + 1, hn => iprop(owns (c : Thread nD τ) scratchM fullShare (accAt V c n hn) ∗ otherScoped c ∗ (∃ r, prngReg c r))

/-- The region's proof data: inputs stay at their blocks; the output block is the accumulator less one (consulted only
    at the last columns); the two input windows read ONE array, each at half of it. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => result (accAt V c t.val t.isLt)
  Φ t := inv V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = result (accAt V c t.val t.isLt) := by dsimp only [dat]

/-- The class's invariant with the four scoped buffers listed and the accumulator as a memref. -/
private theorem PhiA_eq (c : Dev nD) :
    (Pipeline.ΦA spec1 c : sProp 𝕄)
      = iprop(((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ d, owns (c : Thread nD τ) scratchM fullShare d)) ∗ (∃ r, prngReg c r)) := by
  unfold Pipeline.ΦA; rw [scopedRest1_eq]; simp only [scratchM, owns_whole]; rfl

private theorem inv_zero (c : Dev nD) (n : ℕ) (h : n ≤ cfg1.N) (hz : n = 0) : inv V c n h = Pipeline.ΦA spec1 c := by
  subst hz; rfl

private theorem inv_succ (c : Dev nD) (n : ℕ) (hn : n < cfg1.N) :
    inv V c (n + 1) hn = iprop(owns (c : Thread nD τ) scratchM fullShare (accAt V c n hn) ∗ otherScoped c ∗ (∃ r, prngReg c r)) := rfl

private theorem inv_pos (c : Dev nD) (n : ℕ) (h : n ≤ cfg1.N) (hz : n ≠ 0) :
    inv V c n h = iprop(owns (c : Thread nD τ) scratchM fullShare (accAt V c (n - 1) (by omega)) ∗ otherScoped c ∗ (∃ r, prngReg c r)) := by
  cases n with
  | zero => exact absurd rfl hz
  | succ n => rfl

/-- What the region is handed is the invariant before the first point. -/
theorem inv_in (c : Dev nD) : Pipeline.ΦA spec1 c ⊢ (dat V c).Φ 0 := by
  rw [show (dat V c).Φ 0 = inv V c 0 (Nat.zero_le _) from rfl, inv_zero V c 0 _ rfl]

/-- After the last point the invariant gives the same back, the accumulator's contents forgotten. -/
theorem inv_out (c : Dev nD) : (dat V c).Φ (Fin.last cfg1.N) ⊢ Pipeline.ΦA spec1 c := by
  rw [show (dat V c).Φ (Fin.last cfg1.N) = inv V c (Fin.last cfg1.N).val (Nat.le_of_lt_succ (Fin.last cfg1.N).isLt) from rfl,
    inv_pos V c _ _ (by rw [Fin.val_last]; have : cfg1.N = 16 := N_1; omega), PhiA_eq]
  unfold otherScoped
  iintro ⟨HS, ⟨HA, HB, HC⟩, Hg⟩
  isplitr [Hg]
  · isplitl [HA]; · iexact HA
    isplitl [HB]; · iexact HB
    isplitl [HC]; · iexact HC
    iexists _; iexact HS
  iexact Hg

/-- The first input's current staging buffer holds its block at every point: between fetches its block index does not move. -/
private theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [A_eq]) t d).trans
    (by unfold Dat.fetched Dat.blockOf blk; rw [A_eq]; rfl)

/-- The second input is fetched at every point. -/
private theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [A_eq]) t d).trans
    (by unfold Dat.fetched Dat.blockOf blk; rw [A_eq]; rfl)

private theorem live_0 : ∀ t : Fin cfg1.N, cfg1.idle 0 (grid1.coords t) = false := by decide +kernel
private theorem live_1 : ∀ t : Fin cfg1.N, cfg1.idle 1 (grid1.coords t) = false := by decide +kernel
private theorem idle_2 : ∀ t : Fin cfg1.N, ¬condLast (grid1.coords t) → cfg1.idle 2 (grid1.coords t) = true := by decide +kernel
private theorem noFlush_2 : ∀ t : Fin cfg1.N, ¬condLast (grid1.coords t) → (cfg1.win 2).flush t = false := by decide +kernel
private theorem live_2 : ∀ t : Fin cfg1.N, condLast (grid1.coords t) → cfg1.idle 2 (grid1.coords t) = false := by decide +kernel

/-- The invariant at a point's start, restated at the point's position. -/
private theorem Phi_castSucc (c : Dev nD) (t : Fin cfg1.N) :
    (dat V c).Φ t.castSucc = inv V c t.val (Nat.le_of_lt t.isLt) := by
  dsimp only [dat]; simp only [Fin.coe_castSucc]

/-- What the body is called with at point `t`, the windows one by one, -/
private def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
private def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their blocks; the position mod 4 says which control case the
    point is in. At a first column the accumulator is handed over at whatever it holds (before the very first
    point it is one of the scoped buffers at anything) and comes back at one update of zeros; elsewhere it is
    handed over at what the point before left and comes back at one update of that. The output buffer comes back
    as found except at a last column, where it comes back at the accumulator less one. The other region's
    staging buffers and the generator register ride along. -/
private theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (st1_0 t) fullShare ((dat V c).after 0 t) from by
    unfold Dat.leavesExact; rw [live_0 t], after_0]
  rw [show (dat V c).leavesExact 1 t = owns (c : Thread nD τ) (st1_1 t) fullShare ((dat V c).after 1 t) from by
    unfold Dat.leavesExact; rw [live_1 t], after_1]
  have hN : t.val < 16 := lt_of_lt_of_eq t.isLt (show cfg1.N = 16 from N_1)
  by_cases h0 : t.val % 4 = 0
  · have hc0 : condFirst (grid1.coords t) := (condFirst_iff t).mpr h0
    have hc1 : ¬condLast (grid1.coords t) := fun h => by have := (condLast_iff t).mp h; omega
    rw [Dat.leavesExact_idle (dat V c) 2 t (idle_2 t hc1) (noFlush_2 t hc1)]
    rw [accAt_first V c t h0]
    by_cases hz : t.val = 0
    · rw [Phi_castSucc V c t, inv_zero V c _ _ hz, PhiA_eq]
      iintro ⟨⟨⟨HA, HB, HC, HS⟩, Hg⟩, Ho, ⟨%d0, H0⟩, ⟨%d1, H1⟩, ⟨%d2, H2⟩⟩
      iapply (body_first c (grid1.coords t) _ _ _ _ _ _ _ _ hc0 hc1 (blk V c 0 t) (blk V c 1 t) ((dat V c).before 2 t d2) Set.univ _)
      isplitl [H0]; · iexact H0
      isplitl [H1]; · iexact H1
      isplitl [H2]; · iexact H2
      isplitl [HS]; · iexact HS
      iintro ⟨H0, H1, H2, HS⟩
      isplitl [HS HA HB HC Hg]
      · isplitl [HS]; · iexact HS
        isplitr [Hg]
        · unfold otherScoped
          isplitl [HA]; · iexact HA
          isplitl [HB]; · iexact HB
          iexact HC
        iexact Hg
      isplitl [Ho]; · iexact Ho
      isplitl [H0]; · iexact H0
      isplitl [H1]; · iexact H1
      iexists d2; iexact H2
    · rw [Phi_castSucc V c t, inv_pos V c _ _ hz]
      iintro ⟨⟨HS, HO, Hg⟩, Ho, ⟨%d0, H0⟩, ⟨%d1, H1⟩, ⟨%d2, H2⟩⟩
      iapply (body_first c (grid1.coords t) _ _ _ _ _ _ _ _ hc0 hc1 (blk V c 0 t) (blk V c 1 t) ((dat V c).before 2 t d2) Set.univ _)
      isplitl [H0]; · iexact H0
      isplitl [H1]; · iexact H1
      isplitl [H2]; · iexact H2
      isplitl [HS]; · iexists _; iexact HS
      iintro ⟨H0, H1, H2, HS⟩
      isplitl [HS HO Hg]
      · isplitl [HS]; · iexact HS
        isplitl [HO]; · iexact HO
        iexact Hg
      isplitl [Ho]; · iexact Ho
      isplitl [H0]; · iexact H0
      isplitl [H1]; · iexact H1
      iexists d2; iexact H2
  · have hc0 : ¬condFirst (grid1.coords t) := fun h => h0 ((condFirst_iff t).mp h)
    have hz : t.val ≠ 0 := fun h => h0 (by rw [h])
    rw [accAt_next V c t h0]
    rw [Phi_castSucc V c t, inv_pos V c _ _ hz]
    by_cases h1 : t.val % 4 = 3
    · have hc1 : condLast (grid1.coords t) := (condLast_iff t).mpr h1
      rw [show (dat V c).leavesExact 2 t = owns (c : Thread nD τ) (st1_2 t) fullShare ((dat V c).after 2 t) from by
        unfold Dat.leavesExact; rw [live_2 t hc1], after_2, accAt_next V c t h0]
      iintro ⟨⟨HS, HO, Hg⟩, Ho, ⟨%d0, H0⟩, ⟨%d1, H1⟩, ⟨%d2, H2⟩⟩
      iapply (body_last c (grid1.coords t) _ _ _ _ _ _ _ _ hc0 hc1 (blk V c 0 t) (blk V c 1 t) _ Set.univ _)
      isplitl [H0]; · iexact H0
      isplitl [H1]; · iexact H1
      isplitl [H2]; · iexists _; iexact H2
      isplitl [HS]; · iexact HS
      iintro ⟨H0, H1, H2, HS⟩
      isplitl [HS HO Hg]
      · isplitl [HS]; · iexact HS
        isplitl [HO]; · iexact HO
        iexact Hg
      isplitl [Ho]; · iexact Ho
      isplitl [H0]; · iexact H0
      isplitl [H1]; · iexact H1
      iexact H2
    · have hc1 : ¬condLast (grid1.coords t) := fun h => h1 ((condLast_iff t).mp h)
      rw [Dat.leavesExact_idle (dat V c) 2 t (idle_2 t hc1) (noFlush_2 t hc1)]
      iintro ⟨⟨HS, HO, Hg⟩, Ho, ⟨%d0, H0⟩, ⟨%d1, H1⟩, ⟨%d2, H2⟩⟩
      iapply (body_mid c (grid1.coords t) _ _ _ _ _ _ _ _ hc0 hc1 (blk V c 0 t) (blk V c 1 t) ((dat V c).before 2 t d2) _ Set.univ _)
      isplitl [H0]; · iexact H0
      isplitl [H1]; · iexact H1
      isplitl [H2]; · iexact H2
      isplitl [HS]; · iexact HS
      iintro ⟨H0, H1, H2, HS⟩
      isplitl [HS HO Hg]
      · isplitl [HS]; · iexact HS
        isplitl [HO]; · iexact HO
        iexact Hg
      isplitl [Ho]; · iexact Ho
      isplitl [H0]; · iexact H0
      isplitl [H1]; · iexact H1
      iexists d2; iexact H2

/-- The body obligation of the pairwise region, at every point. -/
theorem body_obligation (c : Dev nD) : BodyObligation (dat (F := F) V c) (defs₀ (F := F)) Variants.none () Set.univ := fun t => by
  rw [bigSep_W1, bigSep_W1]
  exact sound_body V c t

end Cert.Kernel.Pair

end
-- ==== Proof.KB.Vals.lean ====
/-
  The buffer contents at each boundary of the program, as functions of the launch memory: the projection region
  leaves its product in the first intermediate array; the host reshapes and transposes it; the pairwise region
  leaves its result array; the host joins it to x. Each region's proof data is taken at the contents the region
  is entered with.
-/
import proofs.«136051_j51926154609300_1_alg».proof.Proof.Gen.Kernel.Launch
import proofs.«136051_j51926154609300_1_alg».proof.Proof.Gen.Kernel.Skeleton
import proofs.«136051_j51926154609300_1_alg».proof.Proof.Gen.Kernel.Points
import proofs.«136051_j51926154609300_1_alg».proof.Proof.Gen.Kernel.Regions
import proofs.«136051_j51926154609300_1_alg».proof.Proof.KB.ProjRegion
import proofs.«136051_j51926154609300_1_alg».proof.Proof.KB.PairData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The contents the projection region is entered with: the launch memory. -/
abbrev E0 (c : Dev nD) (b : Ref sig .tc) : Buf (Elt F) ((c : Thread nD τ).loc b) := m ((c : Thread nD τ).loc b)

/-- After the projection region: its output array at what its write-back leaves, every other buffer as launched. -/
def W1 (c : Dev nD) : Valuation τ sig (Elt F) :=
  Function.update (Gen.V0 m c) main_v0 ((Proj.dat (E0 m) c).arrAt 2 cfg0.N)

/-- After the reshape and the transpose. -/
abbrev W2 (c : Dev nD) : Valuation τ sig (Elt F) := StableHlo.after hostOps1 (W1 m c)

/-- The contents the pairwise region is entered with. -/
abbrev E1 (c : Dev nD) (b : Ref sig .tc) : Buf (Elt F) ((c : Thread nD τ).loc b) := W2 m c b

/-- After the pairwise region: its output array at what its write-backs leave, every other buffer as entered. -/
def W3 (c : Dev nD) : Valuation τ sig (Elt F) :=
  Function.update (W2 m c) main_v3 ((Pair.dat (E1 m) c).arrAt 2 cfg1.N)

/-- After the concatenation. -/
abbrev W4 (c : Dev nD) : Valuation τ sig (Elt F) := StableHlo.after hostOps2 (W3 m c)

/-- What the regions leave in the arrays they write, in the form the conditional frame is stated over. -/
def outs : Gen.Outs (F := F) := fun J r c =>
  match J with
  | 1 => W1 m c r
  | 3 => W3 m c r
  | _ => m ((c : Thread nD τ).loc r)

theorem V1_eq (c : Dev nD) : Gen.V1 m (outs m) c = W1 m c := by
  show Function.update (Gen.V0 m c) _ (W1 m c _) = W1 m c
  unfold W1
  rw [Function.update_self]
theorem V2_eq (c : Dev nD) : Gen.V2 m (outs m) c = W2 m c := by
  show StableHlo.after hostOps1 (Gen.V1 m (outs m) c) = _
  rw [V1_eq]
theorem V3_eq (c : Dev nD) : Gen.V3 m (outs m) c = W3 m c := by
  show Function.update (Gen.V2 m (outs m) c) _ (W3 m c _) = W3 m c
  rw [V2_eq]
  unfold W3
  rw [Function.update_self]
theorem V4_eq (c : Dev nD) : Gen.V4 m (outs m) c = W4 m c := by
  show StableHlo.after hostOps2 (Gen.V3 m (outs m) c) = _
  rw [V3_eq]

end Cert.Kernel.Run

end
-- ==== Proof.KB.PairShares.lean ====
/-
  The two input windows of the pairwise region read ONE array (the transposed projection). Entering the region, the
  core's whole hold on that array is split into two halves, one per window; leaving it the halves are joined again,
  and the output array is put back among the core's buffers at what the region wrote.
-/
import proofs.«136051_j51926154609300_1_alg».proof.Proof.Gen.Kernel.Launch
import proofs.«136051_j51926154609300_1_alg».proof.Proof.Gen.Kernel.Skeleton
import proofs.«136051_j51926154609300_1_alg».proof.Proof.Gen.Kernel.Points
import proofs.«136051_j51926154609300_1_alg».proof.Proof.KB.PairData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (E : (c : Dev nD) → (b : Ref sig .tc) → Buf (Elt F) ((c : Thread nD τ).loc b))

/-- The buffers behind the region's windows: the transposed projection, read by both inputs, and the output array. -/
private theorem img : (Finset.univ.image (Pipeline.arrRef spec1) : Finset (Ref sig .tc)) = {main_v2, main_v3} := by decide

private theorem v2_nmem : (main_v2 : Ref sig .tc) ∉ ({main_v3} : Finset (Ref sig .tc)) := by decide

private theorem v3_mem : (main_v3 : Ref sig .tc) ∈ Finset.univ.image (Pipeline.arrRef spec1) := by rw [img]; decide

/-- The core's unscoped buffers at `V`: the shared array whole, the output array whole, and every other one. -/
private theorem bufs_eq (c : Dev nD) (V : (b : Ref sig .tc) → Buf (Elt F) ((c : Thread nD τ).loc b)) :
    (unscopedBufs (Ix := Unit) (Name := ℕ) (U := UR sig nD τ) (Lvl := ℕ) c V : sProp 𝕄)
      = iprop(((((c : Thread nD τ).loc main_v2) ↦{fullShare} V main_v2) ∗ (((c : Thread nD τ).loc main_v3) ↦{fullShare} V main_v3))
          ∗ Pipeline.unscopedRest (Ix := Unit) (Name := ℕ) (U := UR sig nD τ) (Lvl := ℕ) spec1 c V) := by
  rw [Pipeline.unscopedBufs_split₀ cfgs 1 winFacts₀1.arr_unscoped c V]
  unfold Pipeline.arrBufs
  rw [show (Finset.univ.image (Pipeline.arrRef (cfgs 1).spec) : Finset (Ref sig .tc)) = {main_v2, main_v3} from img,
    bigSep_insert v2_nmem, bigSep_singleton]
  rfl

/-- The region's arrays at contents `G`: a half of the shared array for each input window, the output array whole
    (each array is a whole buffer, so its elements are all of the buffer's). -/
private theorem arrays_eq3 (c : Dev nD) (G : (w : Fin cfg1.W) → Buf (Elt F) ((cfg1.win w).arr.view.loc (c : Thread nD τ))) :
    ((dat E c).arrays G : sProp 𝕄)
      = iprop((((c : Thread nD τ).loc main_v2) ↦{fullShare.left} G 0) ∗ (((c : Thread nD τ).loc main_v2) ↦{fullShare.right} G 1)
          ∗ (((c : Thread nD τ).loc main_v3) ↦{fullShare} G 2)) := by
  -- (windows 0 and 1 are on one array: one rewriting serves both)
  have s0 : (cfg1.win 0).arr.view.set = Finset.univ := (arr_whole1 0).set_eq_univ
  have s2 : (cfg1.win 2).arr.view.set = Finset.univ := (arr_whole1 2).set_eq_univ
  unfold Dat.arrays
  rw [bigSep_W1, s0, s2]
  rfl

/-- ENTRY: the core's unscoped buffers at `E c` are the region's arrays at its entry contents — the shared array at a
    half for each input window, the output array whole — beside every other unscoped buffer. -/
theorem arrays_in (c : Dev nD) :
    (unscopedBufs (Ix := Unit) (Name := ℕ) (U := UR sig nD τ) (Lvl := ℕ) c (E c) : sProp 𝕄)
      ⊢ iprop((dat E c).arrays ((dat E c).arrAt · 0)
          ∗ Pipeline.unscopedRest (Ix := Unit) (Name := ℕ) (U := UR sig nD τ) (Lvl := ℕ) spec1 c (E c)) := by
  rw [bufs_eq, arrays_eq3]
  iintro ⟨⟨H2, H3⟩, HR⟩
  -- the whole hold on the shared array is its two halves
  ihave H2 := (pointsTo_share (PosShare.mem_left_op_right fullShare)).1 $$ H2
  icases H2 with ⟨Hl, Hr⟩
  isplitr [HR]
  · isplitl [Hl]; · iexact Hl
    isplitl [Hr]; · iexact Hr
    iexact H3
  iexact HR

/-- EXIT: the region's arrays at their final contents and the other unscoped buffers are the core's unscoped buffers at
    any contents that have the output array at what the region wrote and agree with the entry contents elsewhere. -/
theorem arrays_out (c : Dev nD) (V' : (b : Ref sig .tc) → Buf (Elt F) ((c : Thread nD τ).loc b))
    (h3 : V' main_v3 = (dat E c).arrAt 2 cfg1.N) (hrest : ∀ b : Ref sig .tc, b ≠ main_v3 → V' b = E c b) :
    iprop((dat E c).arrays ((dat E c).arrAt · cfg1.N)
        ∗ Pipeline.unscopedRest (Ix := Unit) (Name := ℕ) (U := UR sig nD τ) (Lvl := ℕ) spec1 c (E c))
      ⊢ (unscopedBufs (Ix := Unit) (Name := ℕ) (U := UR sig nD τ) (Lvl := ℕ) c V' : sProp 𝕄) := by
  rw [bufs_eq, arrays_eq3]
  -- an input window's array is never written: both halves still hold the entry contents, which are `V'`'s there
  have e0 : (dat E c).arrAt 0 cfg1.N = V' main_v2 := ((dat E c).arrAt_in 0 rfl cfg1.N).trans (hrest main_v2 (by decide)).symm
  have e1 : (dat E c).arrAt 1 cfg1.N = V' main_v2 := ((dat E c).arrAt_in 1 rfl cfg1.N).trans (hrest main_v2 (by decide)).symm
  -- off the arrays `V'` is the entry contents
  have eR : (Pipeline.unscopedRest (Ix := Unit) (Name := ℕ) (U := UR sig nD τ) (Lvl := ℕ) spec1 c (E c) : sProp 𝕄)
      = Pipeline.unscopedRest (Ix := Unit) (Name := ℕ) (U := UR sig nD τ) (Lvl := ℕ) spec1 c V' := by
    unfold Pipeline.unscopedRest
    exact bigSep_congr fun b hb => by rw [hrest b (fun h => (Finset.mem_sdiff.mp hb).2 (h ▸ v3_mem))]
  rw [e0, e1, ← h3, eR]
  iintro ⟨⟨Hl, Hr, H3⟩, HR⟩
  isplitr [HR]
  · isplitr [H3]
    · -- the two halves are the whole hold again
      iapply (pointsTo_share (PosShare.mem_left_op_right fullShare)).2
      isplitl [Hl]; · iexact Hl
      iexact Hr
    iexact H3
  iexact HR

end Cert.Kernel.Pair

end
-- ==== Proof.KB.Segments.lean ====
/-
  The program as segments: the projection region, the reshape and transpose, the pairwise region, the concatenation.
  Between segments the core holds every unscoped buffer whole at the boundary's contents, its generator register at
  some state, and owes nothing. Each region takes its arrays out of the core's buffers on entry and puts them back, at
  what it wrote, on exit. The frame: every weakly fair execution terminates and the two arguments end as launched.
-/
import proofs.«136051_j51926154609300_1_alg».proof.Proof.Gen.Kernel.Launch
import proofs.«136051_j51926154609300_1_alg».proof.Proof.Gen.Kernel.Skeleton
import proofs.«136051_j51926154609300_1_alg».proof.Proof.Gen.Kernel.Points
import proofs.«136051_j51926154609300_1_alg».proof.Proof.Gen.Kernel.Regions
import proofs.«136051_j51926154609300_1_alg».proof.Proof.KB.Vals
import proofs.«136051_j51926154609300_1_alg».proof.Proof.KB.PairShares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each region's proof data, at the contents the region is entered with. -/
def pdats : (p : Fin 2) → (c : Dev nD) → Dat τ (Elt F) Unit ℕ (UR sig nD τ) ℕ (cfgs p) c
  | ⟨0, _⟩ => fun c => Proj.dat (E0 m) c
  | ⟨1, _⟩ => fun c => Pair.dat (E1 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the generator register at some state, and nothing owed. -/
abbrev rest (c : Dev nD) : sProp 𝕄 := iprop((∃ r, prngReg c r) ∗ ∃ W, owes (c : Thread nD τ) (0 : CellTallies nD τ sig Unit) W)

/-- The projection region's output array after it, and the buffers it leaves alone. -/
theorem projF (c : Dev nD) (w : Fin cfg0.W) : (pdats m 0 c).arrAt w cfg0.N = W1 m c (Pipeline.arrRef spec0 w) := by
  show (Proj.dat (E0 m) c).arrAt w cfg0.N = _
  match w with
  | ⟨0, _⟩ =>
    show (Proj.dat (E0 m) c).arrAt 0 cfg0.N = Function.update (Gen.V0 m c) (Proc.devRef .tc main_v0) ((Proj.dat (E0 m) c).arrAt 2 cfg0.N) (Proc.devRef .tc main_arg0)
    rw [Function.update_of_ne (StableHlo.devRef_ne_of_ne (show (main_arg0 : Ref sig .tc) ≠ main_v0 by decide)), (Proj.dat (E0 m) c).arrAt_in 0 rfl, Proj.A_eq]
  | ⟨1, _⟩ =>
    show (Proj.dat (E0 m) c).arrAt 1 cfg0.N = Function.update (Gen.V0 m c) (Proc.devRef .tc main_v0) ((Proj.dat (E0 m) c).arrAt 2 cfg0.N) (Proc.devRef .tc main_arg1)
    rw [Function.update_of_ne (StableHlo.devRef_ne_of_ne (show (main_arg1 : Ref sig .tc) ≠ main_v0 by decide)), (Proj.dat (E0 m) c).arrAt_in 1 rfl, Proj.A_eq]
  | ⟨2, _⟩ =>
    show (Proj.dat (E0 m) c).arrAt 2 cfg0.N = Function.update (Gen.V0 m c) (Proc.devRef .tc main_v0) ((Proj.dat (E0 m) c).arrAt 2 cfg0.N) (Proc.devRef .tc main_v0)
    rw [Function.update_self]
theorem projRest (c : Dev nD) : ∀ b : Ref sig .tc, b ∉ Finset.univ.image (Pipeline.arrRef spec0) → W1 m c b = E0 m c b :=
  fun b hb => Function.update_of_ne (StableHlo.devRef_ne_of_ne fun e => hb (by rw [e]; exact Finset.mem_image.mpr ⟨2, Finset.mem_univ _, rfl⟩)) _ _

set_option backward.isDefEq.respectTransparency.types false in
/-- THE PROJECTION REGION as a segment: entered from the launch contents, left with its output array at the product. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (E0 m) c).loose
  hwaits := Pipeline.hwaits_of_owed_zero _ _ _ _ L lv 0 fun _ _ => rfl
  pre c := iprop(StableHlo.held (c : Thread nD τ) (Pipeline.ucRefs τ sig) (Gen.V0 m c) ∗ rest c)
  post c := iprop(StableHlo.held (c : Thread nD τ) (Pipeline.ucRefs τ sig) (W1 m c) ∗ rest c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E0 m c) fun _ => rfl
    have hheld : (unscopedBufs (Ix := Unit) (Name := ℕ) (U := UR sig nD τ) (Lvl := ℕ) c (E0 m c) : sProp 𝕄) = StableHlo.held (c : Thread nD τ) (Pipeline.ucRefs τ sig) (Gen.V0 m c) :=
      Pipeline.unscopedBufs_held c (Gen.V0 m c)
    rw [hheld] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E0 m c) (fun b => W1 m c b) ((pdats m 0 c).arrAt · cfg0.N) (projF m c) (projRest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE PAIRWISE REGION as a segment: entered from the contents after the transpose, left with its output array written. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (Pair.body_obligation (E1 m) c).loose
  hwaits := Pipeline.hwaits_of_owed_zero _ _ _ _ L lv 1 fun _ _ => rfl
  pre c := iprop(StableHlo.held (c : Thread nD τ) (Pipeline.ucRefs τ sig) (W2 m c) ∗ rest c)
  post c := iprop(StableHlo.held (c : Thread nD τ) (Pipeline.ucRefs τ sig) (W3 m c) ∗ rest c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pair.arrays_in (E1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (Pair.inv_in (E1 m) c)
    unfold Pipeline.ΦA
    iintro ⟨Hp, -, Hr⟩
    isplitl [Hr]; · iexact Hr
    iexact Hp
  hout c := by
    refine (Pair.inv_out (E1 m) c).trans ?_
    rw [Pipeline.ownSems0_none]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (E1 m c))
        ⊢ (unscopedBufs (Ix := Unit) (Name := ℕ) (U := UR sig nD τ) (Lvl := ℕ) c (fun b => W3 m c b) : sProp 𝕄) :=
      Pair.arrays_out (E1 m) c (fun b => W3 m c b) (Function.update_self _ _ _)
        (fun b hb => Function.update_of_ne (StableHlo.devRef_ne_of_ne hb) _ _)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The launch element: the pipeline library's, at every region's staging cells. -/
abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (u₀ : UR sig nD τ) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => rest (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m emb₁ () 𝒱₀ L lv (fun _ _ => rfl) ρ (outs m) (pdats m) (O₀ := 0) (G := fun _ => iprop(emp)) u₀ hu₀
    (E := fun _ c => rest c) (hE0 ρ) (fun c => by iintro ⟨-, H⟩; iexact H)
    (reg0 m) (fun c => .rfl) (fun c => by rw [V1_eq]; exact .rfl)
    (reg1 m) (fun c => by rw [V2_eq]; exact .rfl) (fun c => by rw [V3_eq]; exact .rfl)

end Cert.Kernel.Run

end
-- ==== Proof.KI.ProjRegion.lean ====
/-
  The projection region: one grid point; the body loads the whole of x (512×1024) and of W (500×1024),
  forms the product x·Wᵀ (512×500) and stores it whole into the output block. Here: what the output's
  staging buffer holds after the body as a function of the two input blocks, the body's triple, the
  region's proof data at any entry contents `V`, and the body obligation at the one point.
-/
import proofs.«136051_j51926154609300_1_alg».proof.Proof.Gen.KernelIdeal.Launch
import proofs.«136051_j51926154609300_1_alg».proof.Proof.Gen.KernelIdeal.Skeleton
import proofs.«136051_j51926154609300_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents `V`. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three whole-buffer rectangles the body reads and writes through. -/
abbrev rX : Rect S512x1024 := Rect.unit (s := S512x1024) ![0, 0] S512x1024.size inb_S512x1024_S512x1024_0_0
abbrev rW : Rect S500x1024 := Rect.unit (s := S500x1024) ![0, 0] S500x1024.size inb_S500x1024_S500x1024_0_0
abbrev rP : Rect S512x500 := Rect.unit (s := S512x500) ![0, 0] S512x500.size inb_S512x500_S512x500_0_0

/-- The output block after the body: the one store's payload, the product of the two loaded blocks. -/
def prod (x : Vec F S512x1024 .f32) (w : Vec F S500x1024 .f32) : Vec F S512x500 .f32 :=
  View.canon [⟨rP, k0_pay1 (View.ld x rX) (View.ld w rW)⟩]

/-- The region's proof data at entry contents `V`: inputs stay at their blocks, the output block is the product. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => prod (blk V c 0 t) (blk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = prod (blk V c 0 t) (blk V c 1 t) := by dsimp only [dat]

/-! ## The two inputs as the body finds them -/

/-- The block of x is in its staging buffer when the body runs: the one point fetches it, and the window is
    not cut, so the fetch fills the whole buffer with the array's block. -/
theorem x_found (c : Dev nD) (t : Fin cfg0.N) (d) : (dat V c).before 0 t d = blk V c 0 t := by
  rw [(dat V c).before_fetched 0 t (fetch0_0 t) d]
  unfold Dat.fetched Dat.blockOf blk
  rw [A_eq]
  rfl

/-- Likewise the block of W. -/
theorem w_found (c : Dev nD) (t : Fin cfg0.N) (d) : (dat V c).before 1 t d = blk V c 1 t := by
  rw [(dat V c).before_fetched 1 t (fetch0_1 t) d]
  unfold Dat.fetched Dat.blockOf blk
  rw [A_eq]
  rfl

/-! ## The one store covers the output block -/

/-- A single store through the whole-buffer rectangle reaches every index of the 512×500 block. -/
theorem store_covers (p : Vec F S512x500 .f32) (y : S512x500.Idx) :
    ∃ pc ∈ ([⟨rP, p⟩] : List (View.Piece (Elt F) S512x500 .f32)), y ∈ pc.1.set :=
  View.cover_of_tiled [⟨rP, p⟩] S512x500.size (by rfl) y

/-! ## The body's triple -/

set_option maxHeartbeats 1000000 in
/-- The matmul body on three whole staging memrefs — x's at contents `x`, W's at contents `w`, the output's at
    anything — runs to a continuation that gets the two inputs back unchanged and the output holding `prod x w`:
    two loads, a load of the output whose value is dropped, one store of the product over the whole block. -/
theorem product_triple (c : Dev nD) (E : Set ℕ) (i : grid0.Coords)
    (xM : Memref sig .tc .vmem S512x1024 .f32) (hxM : xM.IsWhole)
    (wM : Memref sig .tc .vmem S500x1024 .f32) (hwM : wM.IsWhole)
    (pM : Memref sig .tc .vmem S512x500 .f32) (hpM : pM.IsWhole)
    (x : Vec F S512x1024 .f32) (w : Vec F S500x1024 .f32) (K : PUnit → sProp 𝕄) :
    iprop(owns (c : Thread nD τ) xM fullShare x ∗ owns (c : Thread nD τ) wM fullShare w
        ∗ (∃ d, owns (c : Thread nD τ) pM fullShare d)
        ∗ (iprop(owns (c : Thread nD τ) xM fullShare x ∗ owns (c : Thread nD τ) wM fullShare w
            ∗ owns (c : Thread nD τ) pM fullShare (prod x w)) -∗ K ⟨⟩))
      ⊢ wp frame (wpE (defs₀ (F := F)) Variants.none c none) E (cc0__matmul_kernel i xM hxM wM hwM pM hpM) K := by
  simp only [cc0__matmul_kernel_eq_skeleton]; unfold cc0__matmul_kernel_skel
  unfold owns
  iintro ⟨⟨%fx, %hfx, Hx⟩, ⟨%fw, %hfw, Hw⟩, ⟨%d, %fp, -, Hp⟩, Hk⟩
  subst hfx hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Hp
  ipureintro
  exact View.read_writes_eq_canon _ _ _ (store_covers _)

/-! ## The body at the point -/

/-- What the pipeline hands the body at point `t`: the invariant, what the core owes, and the three current staging
    buffers, each at what the schedule left in it. -/
def handed (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- What the body hands back: the same invariant and debt, the inputs' buffers at their blocks, the output's at the
    product of the two blocks. -/
def returned (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at the point: the two input buffers hold the blocks of x and W (`x_found`, `w_found`), so the triple
    applies at those blocks; the invariant and the debt are not touched by the body and pass through. -/
theorem body_at (c : Dev nD) (t : Fin cfg0.N) :
    handed V c t ⊢ wp frame (wpE (defs₀ (F := F)) Variants.none c none) Set.univ (bodyAt0 t) (fun _ => returned V c t) := by
  unfold handed returned bodyAt0
  simp only [x_found, w_found]
  rw [show (dat V c).Φ t.succ = (dat V c).Φ t.castSucc from rfl,
    show (dat V c).owesAt () t.succ = (dat V c).owesAt () t.castSucc from rfl,
    after_0, after_1, after_2]
  iintro ⟨HΦ, Ho, ⟨%dx, Hx⟩, ⟨%dw, Hw⟩, ⟨%dp, Hp⟩⟩
  iapply (product_triple c Set.univ _ _ _ _ _ _ _ (blk V c 0 t) (blk V c 1 t) _)
  isplitl [Hx]; · iexact Hx
  isplitl [Hw]; · iexact Hw
  isplitl [Hp]; · iexists _; iexact Hp
  iintro ⟨Hx, Hw, Hp⟩
  isplitl [HΦ]; · iexact HΦ
  isplitl [Ho]; · iexact Ho
  isplitl [Hx]; · iexact Hx
  isplitl [Hw]; · iexact Hw
  iexact Hp

/-- The body obligation of the projection region, at its one point. -/
theorem body_obligation (c : Dev nD) : BodyObligation (dat (F := F) V c) (defs₀ (F := F)) Variants.none () Set.univ := fun t => by
  rw [bigSep_W0, bigSep_W0]
  exact body_at V c t

end Cert.KernelIdeal.Proj

end
-- ==== Proof.KI.PairBody.lean ====
/-
  The pairwise region's body on any whole staging memrefs, by the three control cases the 4×4 grid meets:
  the first column of a row of blocks (the accumulator is zeroed, then updated), a middle column (updated),
  the last column (updated, then the row block's result is the accumulator less one). One update adds to the
  accumulator the sums over the 128 rows j of the second block of exp(−Σₖ |p_i[k] − p_j[k]|).
-/
import proofs.«136051_j51926154609300_1_alg».proof.Proof.Gen.KernelIdeal.Launch
import proofs.«136051_j51926154609300_1_alg».proof.Proof.Gen.KernelIdeal.Skeleton
import proofs.«136051_j51926154609300_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The five slices `[:, k, :]` of a 128×5×100 block, k = 0..4, and the whole 128×100 buffer. -/
abbrev rK0 : Rect S128x5x100 := Rect.unit (s := S128x5x100) ![0, 0, 0] S128x1x100.size inb_S128x5x100_S128x1x100_0_0_0
abbrev rK1 : Rect S128x5x100 := Rect.unit (s := S128x5x100) ![0, 1, 0] S128x1x100.size inb_S128x5x100_S128x1x100_0_1_0
abbrev rK2 : Rect S128x5x100 := Rect.unit (s := S128x5x100) ![0, 2, 0] S128x1x100.size inb_S128x5x100_S128x1x100_0_2_0
abbrev rK3 : Rect S128x5x100 := Rect.unit (s := S128x5x100) ![0, 3, 0] S128x1x100.size inb_S128x5x100_S128x1x100_0_3_0
abbrev rK4 : Rect S128x5x100 := Rect.unit (s := S128x5x100) ![0, 4, 0] S128x1x100.size inb_S128x5x100_S128x1x100_0_4_0
abbrev rA : Rect S128x100 := Rect.unit (s := S128x100) ![0, 0] S128x100.size inb_S128x100_S128x100_0_0

/-- The accumulator as the first column of a row of blocks resets it: zeros. -/
def accZero : Vec F S128x100 .f32 := k1_pay3 (F := F)

/-- One point's update: the accumulator `s` plus, for each row i of the first block and lane o, the sum over the
    rows j of the second block of exp(0 − Σₖ |x0[i,k,o] − x1[j,k,o]|). -/
def accStep (x0 x1 : Vec F S128x5x100 .f32) (s : Vec F S128x100 .f32) : Vec F S128x100 .f32 :=
  k1_pay1 (k1_pay4 (View.ld x0 rK0) (View.ld x1 rK0) (View.ld x0 rK1) (View.ld x1 rK1)) (k1_pay5 (View.ld x0 rK2) (View.ld x1 rK2))
    (View.ld x0 rK3) (View.ld x1 rK3) (View.ld x0 rK4) (View.ld x1 rK4) s

/-- What the last column stores into the output block: the accumulator less one. -/
def result (s : Vec F S128x100 .f32) : Vec F S128x100 .f32 := k1_pay2 s

/-- The body's two branch conditions, from the grid coordinates: "second coordinate is 0", "second coordinate is 3". -/
abbrev condFirst (i : grid1.Coords) : Prop := (Scalar.cmpi .ne (Scalar.extui (Scalar.cmpi .eq (BitVec.ofNat 32 (i 1).val) 0#32)) 0#32) = 1#1
abbrev condLast (i : grid1.Coords) : Prop := k1_cond2 i = 1#1

theorem condFirst_iff : ∀ t : Fin cfg1.N, condFirst (grid1.coords t) ↔ t.val % 4 = 0 :=
  (by decide +kernel : ∀ t : Fin grid1.N, condFirst (grid1.coords t) ↔ t.val % 4 = 0)
theorem condLast_iff : ∀ t : Fin cfg1.N, condLast (grid1.coords t) ↔ t.val % 4 = 3 :=
  (by decide +kernel : ∀ t : Fin grid1.N, condLast (grid1.coords t) ↔ t.val % 4 = 3)

/-- The zero offsets of a whole 128×100 buffer, however they are spelt. -/
private theorem hz2 : (![0, 0] : Fin 2 → Nat) = fun _ => 0 := funext fun a => by fin_cases a <;> rfl

/-- A store through the whole 128×100 rectangle, last of any list of stores, covers every index of the buffer. -/
private theorem cover_rA (w : Vec F S128x100 .f32) (L : List (View.Piece (Elt F) S128x100 .f32)) :
    ∀ y, ∃ p ∈ ((⟨Rect.unit ![0, 0] S128x100.size inb_S128x100_S128x100_0_0, w⟩ : View.Piece (Elt F) S128x100 .f32) :: L), y ∈ p.1.set :=
  fun y => ⟨_, List.mem_cons_self, View.mem_set_unit_zero hz2 inb_S128x100_S128x100_0_0 y⟩

/-- First column: the accumulator, whatever it held, ends at one update of zeros; the output buffer is untouched. -/
theorem body_first (c : Dev nD) (i : grid1.Coords) (arg2 : Memref sig .tc .vmem S128x5x100 .f32) (harg2 : arg2.IsWhole) (arg3 : Memref sig .tc .vmem S128x5x100 .f32) (harg3 : arg3.IsWhole)
    (arg4 : Memref sig .tc .vmem S128x100 .f32) (harg4 : arg4.IsWhole) (arg5 : Memref sig .tc .vmem S128x100 .f32) (harg5 : arg5.IsWhole)
    (hc0 : condFirst i) (hc1 : ¬condLast i) (x0 x1 : Vec F S128x5x100 .f32) (xo : Vec F S128x100 .f32) (E : Set ℕ) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) arg5 fullShare s)
        ∗ (iprop(owns (c : Thread nD τ) arg2 fullShare x0 ∗ owns (c : Thread nD τ) arg3 fullShare x1 ∗ owns (c : Thread nD τ) arg4 fullShare xo
            ∗ owns (c : Thread nD τ) arg5 fullShare (accStep x0 x1 (accZero (F := F)))) -∗ K ⟨⟩))
      ⊢ wp frame (wpE (defs₀ (F := F)) Variants.none c none) E (cc1__pairwise_kernel i arg2 harg2 arg3 harg3 arg4 harg4 arg5 harg5) K := by
  -- the body is its sequence of loads and stores over named payloads; each buffer is opened to its raw contents
  simp only [cc1__pairwise_kernel_eq_skeleton]; unfold cc1__pairwise_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  -- the two inputs are only read: they are handed back as they were
  isplitl [H0]
  · iexists _; isplitr; · ipureintro; exact harg2.read_unread _
    iexact H0
  isplitl [H1]
  · iexists _; isplitr; · ipureintro; exact harg3.read_unread _
    iexact H1
  -- no store reaches the output buffer
  isplitl [H2]
  · iexists _; isplitr; · ipureintro; exact harg4.read_unread _
    iexact H2
  -- the accumulator: zeros stored over whatever it held, read back, then the update stored over them; the later
  -- store covers the buffer, so it reads as that store's payload, in which the read-back is the zeros
  iexists _; isplitr
  rotate_left
  · iexact HS
  · ipureintro
    sl_unfold_words
    rw [View.read_writes_eq_canon _ _ _ (cover_rA _ _)]
    rw [View.canon_cons_unit_zero (S := S128x100) hz2, View.readCov_unit_zero (S := S128x100) _ hz2]
    unfold accStep accZero
    simp only [View.readAt_eq_ld, harg2.read_unread, harg3.read_unread, View.ld_unit_zero (S := S128x100) hz2]

/-- A middle column: the accumulator at `s` ends at one update of `s`; the output buffer is untouched. -/
theorem body_mid (c : Dev nD) (i : grid1.Coords) (arg2 : Memref sig .tc .vmem S128x5x100 .f32) (harg2 : arg2.IsWhole) (arg3 : Memref sig .tc .vmem S128x5x100 .f32) (harg3 : arg3.IsWhole)
    (arg4 : Memref sig .tc .vmem S128x100 .f32) (harg4 : arg4.IsWhole) (arg5 : Memref sig .tc .vmem S128x100 .f32) (harg5 : arg5.IsWhole)
    (hc0 : ¬condFirst i) (hc1 : ¬condLast i) (x0 x1 : Vec F S128x5x100 .f32) (xo s : Vec F S128x100 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s
        ∗ (iprop(owns (c : Thread nD τ) arg2 fullShare x0 ∗ owns (c : Thread nD τ) arg3 fullShare x1 ∗ owns (c : Thread nD τ) arg4 fullShare xo
            ∗ owns (c : Thread nD τ) arg5 fullShare (accStep x0 x1 s)) -∗ K ⟨⟩))
      ⊢ wp frame (wpE (defs₀ (F := F)) Variants.none c none) E (cc1__pairwise_kernel i arg2 harg2 arg3 harg3 arg4 harg4 arg5 harg5) K := by
  -- the body is its sequence of loads and stores over named payloads; each buffer is opened to its raw contents
  simp only [cc1__pairwise_kernel_eq_skeleton]; unfold cc1__pairwise_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  -- the two inputs are only read: they are handed back as they were
  isplitl [H0]
  · iexists _; isplitr; · ipureintro; exact harg2.read_unread _
    iexact H0
  isplitl [H1]
  · iexists _; isplitr; · ipureintro; exact harg3.read_unread _
    iexact H1
  -- no store reaches the output buffer
  isplitl [H2]
  · iexists _; isplitr; · ipureintro; exact harg4.read_unread _
    iexact H2
  -- the accumulator: one covering store, whose payload is the update of what the buffer held
  iexists _; isplitr
  rotate_left
  · iexact HS
  · ipureintro
    sl_unfold_words
    rw [View.read_writes_eq_canon _ _ _ (cover_rA _ _), View.canon_unit_zero hz2]
    unfold accStep
    simp only [View.readAt_eq_ld, harg2.read_unread, harg3.read_unread, harg5.read_unread, View.ld_unit_zero (S := S128x100) hz2]

/-- The last column: the accumulator at `s` ends at one update of `s`, and the output buffer, whatever it held, at that less one. -/
theorem body_last (c : Dev nD) (i : grid1.Coords) (arg2 : Memref sig .tc .vmem S128x5x100 .f32) (harg2 : arg2.IsWhole) (arg3 : Memref sig .tc .vmem S128x5x100 .f32) (harg3 : arg3.IsWhole)
    (arg4 : Memref sig .tc .vmem S128x100 .f32) (harg4 : arg4.IsWhole) (arg5 : Memref sig .tc .vmem S128x100 .f32) (harg5 : arg5.IsWhole)
    (hc0 : ¬condFirst i) (hc1 : condLast i) (x0 x1 : Vec F S128x5x100 .f32) (s : Vec F S128x100 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (result (accStep x0 x1 s))
            ∗ owns (c : Thread nD τ) arg5 fullShare (accStep x0 x1 s)) -∗ K ⟨⟩))
      ⊢ wp frame (wpE (defs₀ (F := F)) Variants.none c none) E (cc1__pairwise_kernel i arg2 harg2 arg3 harg3 arg4 harg4 arg5 harg5) K := by
  -- the body is its sequence of loads and stores over named payloads; each buffer is opened to its raw contents
  simp only [cc1__pairwise_kernel_eq_skeleton]; unfold cc1__pairwise_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  -- the two inputs are only read: they are handed back as they were
  isplitl [H0]
  · iexists _; isplitr; · ipureintro; exact harg2.read_unread _
    iexact H0
  isplitl [H1]
  · iexists _; isplitr; · ipureintro; exact harg3.read_unread _
    iexact H1
  -- the output buffer: one covering store of the accumulator, read back after its update, less one
  isplitl [H2]
  · iexists _; isplitr
    rotate_left
    · iexact H2
    · ipureintro
      sl_unfold_words
      rw [View.read_writes_eq_canon _ _ _ (cover_rA _ _), View.canon_unit_zero hz2, View.readCov_unit_zero (S := S128x100) _ hz2]
      unfold result accStep
      simp only [View.readAt_eq_ld, harg2.read_unread, harg3.read_unread, harg5.read_unread, View.ld_unit_zero (S := S128x100) hz2]
  -- the accumulator: one covering store, whose payload is the update of what the buffer held
  iexists _; isplitr
  rotate_left
  · iexact HS
  · ipureintro
    sl_unfold_words
    rw [View.read_writes_eq_canon _ _ _ (cover_rA _ _), View.canon_unit_zero hz2]
    unfold accStep
    simp only [View.readAt_eq_ld, harg2.read_unread, harg3.read_unread, harg5.read_unread, View.ld_unit_zero (S := S128x100) hz2]

end Cert.KernelIdeal.Pair

end
-- ==== Proof.KI.PairData.lean ====
/-
  The pairwise region's proof data at any entry contents `V`: point t = 4·a + b works on row block a (first
  input window) against row block b (second input window). The scratch accumulator after point t is one update
  of zeros when b = 0 and one update of what point t − 1 left otherwise; the output block, written back only at
  b = 3, is that accumulator less one. The invariant between points carries the accumulator at this value.
-/
import proofs.«136051_j51926154609300_1_alg».proof.Proof.Gen.KernelIdeal.Launch
import proofs.«136051_j51926154609300_1_alg».proof.Proof.Gen.KernelIdeal.Skeleton
import proofs.«136051_j51926154609300_1_alg».proof.Proof.Gen.KernelIdeal.Points
import proofs.«136051_j51926154609300_1_alg».proof.Proof.KI.PairBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents `V`. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATION: the scratch after the body at point `n`. -/
def accAt (c : Dev nD) : (n : ℕ) → n < cfg1.N → Vec F S128x100 .f32
  | 0, hn => accStep (blk V c 0 ⟨0, hn⟩) (blk V c 1 ⟨0, hn⟩) (accZero (F := F))
  | n + 1, hn =>
    if (n + 1) % 4 = 0 then accStep (blk V c 0 ⟨n + 1, hn⟩) (blk V c 1 ⟨n + 1, hn⟩) (accZero (F := F))
    else accStep (blk V c 0 ⟨n + 1, hn⟩) (blk V c 1 ⟨n + 1, hn⟩) (accAt c n (Nat.lt_of_succ_lt hn))

/-- At a first column the accumulation restarts from zeros. -/
theorem accAt_first (c : Dev nD) (t : Fin cfg1.N) (h : t.val % 4 = 0) :
    accAt V c t.val t.isLt = accStep (blk V c 0 t) (blk V c 1 t) (accZero (F := F)) := by
  obtain ⟨n, hn⟩ := t
  cases n with
  | zero => rfl
  | succ n => exact (if_pos h).trans rfl

/-- Elsewhere it continues from what the point before left. -/
theorem accAt_next (c : Dev nD) (t : Fin cfg1.N) (h : ¬t.val % 4 = 0) :
    accAt V c t.val t.isLt = accStep (blk V c 0 t) (blk V c 1 t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The scratch accumulator as a memref. -/
abbrev scratchM : Memref sig .tc .vmem S128x100 .f32 := Memref.whole cc1_scratch0

/-- The scoped buffers of the other region, each whole at some contents: they ride along untouched. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f))

/-- The invariant before position `n`: before the first point every scoped buffer no window stages at anything
    (and the generator register at some state); afterwards the accumulator at what point n − 1 left. -/
def inv (c : Dev nD) : (n : ℕ) → n ≤ cfg1.N → sProp 𝕄
  | 0, _ => Pipeline.ΦA spec1 c
  | n + 1, hn => iprop(owns (c : Thread nD τ) scratchM fullShare (accAt V c n hn) ∗ otherScoped c ∗ (∃ r, prngReg c r))

/-- The region's proof data: inputs stay at their blocks; the output block is the accumulator less one (consulted only
    at the last columns); the two input windows read ONE array, each at half of it. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => result (accAt V c t.val t.isLt)
  Φ t := inv V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = result (accAt V c t.val t.isLt) := by dsimp only [dat]

/-- The class's invariant with the four scoped buffers listed and the accumulator as a memref. -/
private theorem PhiA_eq (c : Dev nD) :
    (Pipeline.ΦA spec1 c : sProp 𝕄)
      = iprop(((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ d, owns (c : Thread nD τ) scratchM fullShare d)) ∗ (∃ r, prngReg c r)) := by
  unfold Pipeline.ΦA; rw [scopedRest1_eq]; simp only [scratchM, owns_whole]; rfl

private theorem inv_zero (c : Dev nD) (n : ℕ) (h : n ≤ cfg1.N) (hz : n = 0) : inv V c n h = Pipeline.ΦA spec1 c := by
  subst hz; rfl

private theorem inv_succ (c : Dev nD) (n : ℕ) (hn : n < cfg1.N) :
    inv V c (n + 1) hn = iprop(owns (c : Thread nD τ) scratchM fullShare (accAt V c n hn) ∗ otherScoped c ∗ (∃ r, prngReg c r)) := rfl

private theorem inv_pos (c : Dev nD) (n : ℕ) (h : n ≤ cfg1.N) (hz : n ≠ 0) :
    inv V c n h = iprop(owns (c : Thread nD τ) scratchM fullShare (accAt V c (n - 1) (by omega)) ∗ otherScoped c ∗ (∃ r, prngReg c r)) := by
  cases n with
  | zero => exact absurd rfl hz
  | succ n => rfl

/-- What the region is handed is the invariant before the first point. -/
theorem inv_in (c : Dev nD) : Pipeline.ΦA spec1 c ⊢ (dat V c).Φ 0 := by
  rw [show (dat V c).Φ 0 = inv V c 0 (Nat.zero_le _) from rfl, inv_zero V c 0 _ rfl]

/-- After the last point the invariant gives the same back, the accumulator's contents forgotten. -/
theorem inv_out (c : Dev nD) : (dat V c).Φ (Fin.last cfg1.N) ⊢ Pipeline.ΦA spec1 c := by
  rw [show (dat V c).Φ (Fin.last cfg1.N) = inv V c (Fin.last cfg1.N).val (Nat.le_of_lt_succ (Fin.last cfg1.N).isLt) from rfl,
    inv_pos V c _ _ (by rw [Fin.val_last]; have : cfg1.N = 16 := N_1; omega), PhiA_eq]
  unfold otherScoped
  iintro ⟨HS, ⟨HA, HB, HC⟩, Hg⟩
  isplitr [Hg]
  · isplitl [HA]; · iexact HA
    isplitl [HB]; · iexact HB
    isplitl [HC]; · iexact HC
    iexists _; iexact HS
  iexact Hg

/-- The first input's current staging buffer holds its block at every point: between fetches its block index does not move. -/
private theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [A_eq]) t d).trans
    (by unfold Dat.fetched Dat.blockOf blk; rw [A_eq]; rfl)

/-- The second input is fetched at every point. -/
private theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [A_eq]) t d).trans
    (by unfold Dat.fetched Dat.blockOf blk; rw [A_eq]; rfl)

private theorem live_0 : ∀ t : Fin cfg1.N, cfg1.idle 0 (grid1.coords t) = false := by decide +kernel
private theorem live_1 : ∀ t : Fin cfg1.N, cfg1.idle 1 (grid1.coords t) = false := by decide +kernel
private theorem idle_2 : ∀ t : Fin cfg1.N, ¬condLast (grid1.coords t) → cfg1.idle 2 (grid1.coords t) = true := by decide +kernel
private theorem noFlush_2 : ∀ t : Fin cfg1.N, ¬condLast (grid1.coords t) → (cfg1.win 2).flush t = false := by decide +kernel
private theorem live_2 : ∀ t : Fin cfg1.N, condLast (grid1.coords t) → cfg1.idle 2 (grid1.coords t) = false := by decide +kernel

/-- The invariant at a point's start, restated at the point's position. -/
private theorem Phi_castSucc (c : Dev nD) (t : Fin cfg1.N) :
    (dat V c).Φ t.castSucc = inv V c t.val (Nat.le_of_lt t.isLt) := by
  dsimp only [dat]; simp only [Fin.coe_castSucc]

/-- What the body is called with at point `t`, the windows one by one, -/
private def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
private def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their blocks; the position mod 4 says which control case the
    point is in. At a first column the accumulator is handed over at whatever it holds (before the very first
    point it is one of the scoped buffers at anything) and comes back at one update of zeros; elsewhere it is
    handed over at what the point before left and comes back at one update of that. The output buffer comes back
    as found except at a last column, where it comes back at the accumulator less one. The other region's
    staging buffers and the generator register ride along. -/
private theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (st1_0 t) fullShare ((dat V c).after 0 t) from by
    unfold Dat.leavesExact; rw [live_0 t], after_0]
  rw [show (dat V c).leavesExact 1 t = owns (c : Thread nD τ) (st1_1 t) fullShare ((dat V c).after 1 t) from by
    unfold Dat.leavesExact; rw [live_1 t], after_1]
  have hN : t.val < 16 := lt_of_lt_of_eq t.isLt (show cfg1.N = 16 from N_1)
  by_cases h0 : t.val % 4 = 0
  · have hc0 : condFirst (grid1.coords t) := (condFirst_iff t).mpr h0
    have hc1 : ¬condLast (grid1.coords t) := fun h => by have := (condLast_iff t).mp h; omega
    rw [Dat.leavesExact_idle (dat V c) 2 t (idle_2 t hc1) (noFlush_2 t hc1)]
    rw [accAt_first V c t h0]
    by_cases hz : t.val = 0
    · rw [Phi_castSucc V c t, inv_zero V c _ _ hz, PhiA_eq]
      iintro ⟨⟨⟨HA, HB, HC, HS⟩, Hg⟩, Ho, ⟨%d0, H0⟩, ⟨%d1, H1⟩, ⟨%d2, H2⟩⟩
      iapply (body_first c (grid1.coords t) _ _ _ _ _ _ _ _ hc0 hc1 (blk V c 0 t) (blk V c 1 t) ((dat V c).before 2 t d2) Set.univ _)
      isplitl [H0]; · iexact H0
      isplitl [H1]; · iexact H1
      isplitl [H2]; · iexact H2
      isplitl [HS]; · iexact HS
      iintro ⟨H0, H1, H2, HS⟩
      isplitl [HS HA HB HC Hg]
      · isplitl [HS]; · iexact HS
        isplitr [Hg]
        · unfold otherScoped
          isplitl [HA]; · iexact HA
          isplitl [HB]; · iexact HB
          iexact HC
        iexact Hg
      isplitl [Ho]; · iexact Ho
      isplitl [H0]; · iexact H0
      isplitl [H1]; · iexact H1
      iexists d2; iexact H2
    · rw [Phi_castSucc V c t, inv_pos V c _ _ hz]
      iintro ⟨⟨HS, HO, Hg⟩, Ho, ⟨%d0, H0⟩, ⟨%d1, H1⟩, ⟨%d2, H2⟩⟩
      iapply (body_first c (grid1.coords t) _ _ _ _ _ _ _ _ hc0 hc1 (blk V c 0 t) (blk V c 1 t) ((dat V c).before 2 t d2) Set.univ _)
      isplitl [H0]; · iexact H0
      isplitl [H1]; · iexact H1
      isplitl [H2]; · iexact H2
      isplitl [HS]; · iexists _; iexact HS
      iintro ⟨H0, H1, H2, HS⟩
      isplitl [HS HO Hg]
      · isplitl [HS]; · iexact HS
        isplitl [HO]; · iexact HO
        iexact Hg
      isplitl [Ho]; · iexact Ho
      isplitl [H0]; · iexact H0
      isplitl [H1]; · iexact H1
      iexists d2; iexact H2
  · have hc0 : ¬condFirst (grid1.coords t) := fun h => h0 ((condFirst_iff t).mp h)
    have hz : t.val ≠ 0 := fun h => h0 (by rw [h])
    rw [accAt_next V c t h0]
    rw [Phi_castSucc V c t, inv_pos V c _ _ hz]
    by_cases h1 : t.val % 4 = 3
    · have hc1 : condLast (grid1.coords t) := (condLast_iff t).mpr h1
      rw [show (dat V c).leavesExact 2 t = owns (c : Thread nD τ) (st1_2 t) fullShare ((dat V c).after 2 t) from by
        unfold Dat.leavesExact; rw [live_2 t hc1], after_2, accAt_next V c t h0]
      iintro ⟨⟨HS, HO, Hg⟩, Ho, ⟨%d0, H0⟩, ⟨%d1, H1⟩, ⟨%d2, H2⟩⟩
      iapply (body_last c (grid1.coords t) _ _ _ _ _ _ _ _ hc0 hc1 (blk V c 0 t) (blk V c 1 t) _ Set.univ _)
      isplitl [H0]; · iexact H0
      isplitl [H1]; · iexact H1
      isplitl [H2]; · iexists _; iexact H2
      isplitl [HS]; · iexact HS
      iintro ⟨H0, H1, H2, HS⟩
      isplitl [HS HO Hg]
      · isplitl [HS]; · iexact HS
        isplitl [HO]; · iexact HO
        iexact Hg
      isplitl [Ho]; · iexact Ho
      isplitl [H0]; · iexact H0
      isplitl [H1]; · iexact H1
      iexact H2
    · have hc1 : ¬condLast (grid1.coords t) := fun h => h1 ((condLast_iff t).mp h)
      rw [Dat.leavesExact_idle (dat V c) 2 t (idle_2 t hc1) (noFlush_2 t hc1)]
      iintro ⟨⟨HS, HO, Hg⟩, Ho, ⟨%d0, H0⟩, ⟨%d1, H1⟩, ⟨%d2, H2⟩⟩
      iapply (body_mid c (grid1.coords t) _ _ _ _ _ _ _ _ hc0 hc1 (blk V c 0 t) (blk V c 1 t) ((dat V c).before 2 t d2) _ Set.univ _)
      isplitl [H0]; · iexact H0
      isplitl [H1]; · iexact H1
      isplitl [H2]; · iexact H2
      isplitl [HS]; · iexact HS
      iintro ⟨H0, H1, H2, HS⟩
      isplitl [HS HO Hg]
      · isplitl [HS]; · iexact HS
        isplitl [HO]; · iexact HO
        iexact Hg
      isplitl [Ho]; · iexact Ho
      isplitl [H0]; · iexact H0
      isplitl [H1]; · iexact H1
      iexists d2; iexact H2

/-- The body obligation of the pairwise region, at every point. -/
theorem body_obligation (c : Dev nD) : BodyObligation (dat (F := F) V c) (defs₀ (F := F)) Variants.none () Set.univ := fun t => by
  rw [bigSep_W1, bigSep_W1]
  exact sound_body V c t

end Cert.KernelIdeal.Pair

end
-- ==== Proof.KI.Vals.lean ====
/-
  The buffer contents at each boundary of the program, as functions of the launch memory: the projection region
  leaves its product in the first intermediate array; the host reshapes and transposes it; the pairwise region
  leaves its result array; the host joins it to x. Each region's proof data is taken at the contents the region
  is entered with.
-/
import proofs.«136051_j51926154609300_1_alg».proof.Proof.Gen.KernelIdeal.Launch
import proofs.«136051_j51926154609300_1_alg».proof.Proof.Gen.KernelIdeal.Skeleton
import proofs.«136051_j51926154609300_1_alg».proof.Proof.Gen.KernelIdeal.Points
import proofs.«136051_j51926154609300_1_alg».proof.Proof.Gen.KernelIdeal.Regions
import proofs.«136051_j51926154609300_1_alg».proof.Proof.KI.ProjRegion
import proofs.«136051_j51926154609300_1_alg».proof.Proof.KI.PairData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The contents the projection region is entered with: the launch memory. -/
abbrev E0 (c : Dev nD) (b : Ref sig .tc) : Buf (Elt F) ((c : Thread nD τ).loc b) := m ((c : Thread nD τ).loc b)

/-- After the projection region: its output array at what its write-back leaves, every other buffer as launched. -/
def W1 (c : Dev nD) : Valuation τ sig (Elt F) :=
  Function.update (Gen.V0 m c) main_v0 ((Proj.dat (E0 m) c).arrAt 2 cfg0.N)

/-- After the reshape and the transpose. -/
abbrev W2 (c : Dev nD) : Valuation τ sig (Elt F) := StableHlo.after hostOps1 (W1 m c)

/-- The contents the pairwise region is entered with. -/
abbrev E1 (c : Dev nD) (b : Ref sig .tc) : Buf (Elt F) ((c : Thread nD τ).loc b) := W2 m c b

/-- After the pairwise region: its output array at what its write-backs leave, every other buffer as entered. -/
def W3 (c : Dev nD) : Valuation τ sig (Elt F) :=
  Function.update (W2 m c) main_v3 ((Pair.dat (E1 m) c).arrAt 2 cfg1.N)

/-- After the concatenation. -/
abbrev W4 (c : Dev nD) : Valuation τ sig (Elt F) := StableHlo.after hostOps2 (W3 m c)

/-- What the regions leave in the arrays they write, in the form the conditional frame is stated over. -/
def outs : Gen.Outs (F := F) := fun J r c =>
  match J with
  | 1 => W1 m c r
  | 3 => W3 m c r
  | _ => m ((c : Thread nD τ).loc r)

theorem V1_eq (c : Dev nD) : Gen.V1 m (outs m) c = W1 m c := by
  show Function.update (Gen.V0 m c) _ (W1 m c _) = W1 m c
  unfold W1
  rw [Function.update_self]
theorem V2_eq (c : Dev nD) : Gen.V2 m (outs m) c = W2 m c := by
  show StableHlo.after hostOps1 (Gen.V1 m (outs m) c) = _
  rw [V1_eq]
theorem V3_eq (c : Dev nD) : Gen.V3 m (outs m) c = W3 m c := by
  show Function.update (Gen.V2 m (outs m) c) _ (W3 m c _) = W3 m c
  rw [V2_eq]
  unfold W3
  rw [Function.update_self]
theorem V4_eq (c : Dev nD) : Gen.V4 m (outs m) c = W4 m c := by
  show StableHlo.after hostOps2 (Gen.V3 m (outs m) c) = _
  rw [V3_eq]

end Cert.KernelIdeal.Run

end
-- ==== Proof.KI.PairShares.lean ====
/-
  The two input windows of the pairwise region read ONE array (the transposed projection). Entering the region, the
  core's whole hold on that array is split into two halves, one per window; leaving it the halves are joined again,
  and the output array is put back among the core's buffers at what the region wrote.
-/
import proofs.«136051_j51926154609300_1_alg».proof.Proof.Gen.KernelIdeal.Launch
import proofs.«136051_j51926154609300_1_alg».proof.Proof.Gen.KernelIdeal.Skeleton
import proofs.«136051_j51926154609300_1_alg».proof.Proof.Gen.KernelIdeal.Points
import proofs.«136051_j51926154609300_1_alg».proof.Proof.KI.PairData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (E : (c : Dev nD) → (b : Ref sig .tc) → Buf (Elt F) ((c : Thread nD τ).loc b))

/-- The buffers behind the region's windows: the transposed projection, read by both inputs, and the output array. -/
private theorem img : (Finset.univ.image (Pipeline.arrRef spec1) : Finset (Ref sig .tc)) = {main_v2, main_v3} := by decide

private theorem v2_nmem : (main_v2 : Ref sig .tc) ∉ ({main_v3} : Finset (Ref sig .tc)) := by decide

private theorem v3_mem : (main_v3 : Ref sig .tc) ∈ Finset.univ.image (Pipeline.arrRef spec1) := by rw [img]; decide

/-- The core's unscoped buffers at `V`: the shared array whole, the output array whole, and every other one. -/
private theorem bufs_eq (c : Dev nD) (V : (b : Ref sig .tc) → Buf (Elt F) ((c : Thread nD τ).loc b)) :
    (unscopedBufs (Ix := Unit) (Name := ℕ) (U := UR sig nD τ) (Lvl := ℕ) c V : sProp 𝕄)
      = iprop(((((c : Thread nD τ).loc main_v2) ↦{fullShare} V main_v2) ∗ (((c : Thread nD τ).loc main_v3) ↦{fullShare} V main_v3))
          ∗ Pipeline.unscopedRest (Ix := Unit) (Name := ℕ) (U := UR sig nD τ) (Lvl := ℕ) spec1 c V) := by
  rw [Pipeline.unscopedBufs_split₀ cfgs 1 winFacts₀1.arr_unscoped c V]
  unfold Pipeline.arrBufs
  rw [show (Finset.univ.image (Pipeline.arrRef (cfgs 1).spec) : Finset (Ref sig .tc)) = {main_v2, main_v3} from img,
    bigSep_insert v2_nmem, bigSep_singleton]
  rfl

/-- The region's arrays at contents `G`: a half of the shared array for each input window, the output array whole
    (each array is a whole buffer, so its elements are all of the buffer's). -/
private theorem arrays_eq3 (c : Dev nD) (G : (w : Fin cfg1.W) → Buf (Elt F) ((cfg1.win w).arr.view.loc (c : Thread nD τ))) :
    ((dat E c).arrays G : sProp 𝕄)
      = iprop((((c : Thread nD τ).loc main_v2) ↦{fullShare.left} G 0) ∗ (((c : Thread nD τ).loc main_v2) ↦{fullShare.right} G 1)
          ∗ (((c : Thread nD τ).loc main_v3) ↦{fullShare} G 2)) := by
  -- (windows 0 and 1 are on one array: one rewriting serves both)
  have s0 : (cfg1.win 0).arr.view.set = Finset.univ := (arr_whole1 0).set_eq_univ
  have s2 : (cfg1.win 2).arr.view.set = Finset.univ := (arr_whole1 2).set_eq_univ
  unfold Dat.arrays
  rw [bigSep_W1, s0, s2]
  rfl

/-- ENTRY: the core's unscoped buffers at `E c` are the region's arrays at its entry contents — the shared array at a
    half for each input window, the output array whole — beside every other unscoped buffer. -/
theorem arrays_in (c : Dev nD) :
    (unscopedBufs (Ix := Unit) (Name := ℕ) (U := UR sig nD τ) (Lvl := ℕ) c (E c) : sProp 𝕄)
      ⊢ iprop((dat E c).arrays ((dat E c).arrAt · 0)
          ∗ Pipeline.unscopedRest (Ix := Unit) (Name := ℕ) (U := UR sig nD τ) (Lvl := ℕ) spec1 c (E c)) := by
  rw [bufs_eq, arrays_eq3]
  iintro ⟨⟨H2, H3⟩, HR⟩
  -- the whole hold on the shared array is its two halves
  ihave H2 := (pointsTo_share (PosShare.mem_left_op_right fullShare)).1 $$ H2
  icases H2 with ⟨Hl, Hr⟩
  isplitr [HR]
  · isplitl [Hl]; · iexact Hl
    isplitl [Hr]; · iexact Hr
    iexact H3
  iexact HR

/-- EXIT: the region's arrays at their final contents and the other unscoped buffers are the core's unscoped buffers at
    any contents that have the output array at what the region wrote and agree with the entry contents elsewhere. -/
theorem arrays_out (c : Dev nD) (V' : (b : Ref sig .tc) → Buf (Elt F) ((c : Thread nD τ).loc b))
    (h3 : V' main_v3 = (dat E c).arrAt 2 cfg1.N) (hrest : ∀ b : Ref sig .tc, b ≠ main_v3 → V' b = E c b) :
    iprop((dat E c).arrays ((dat E c).arrAt · cfg1.N)
        ∗ Pipeline.unscopedRest (Ix := Unit) (Name := ℕ) (U := UR sig nD τ) (Lvl := ℕ) spec1 c (E c))
      ⊢ (unscopedBufs (Ix := Unit) (Name := ℕ) (U := UR sig nD τ) (Lvl := ℕ) c V' : sProp 𝕄) := by
  rw [bufs_eq, arrays_eq3]
  -- an input window's array is never written: both halves still hold the entry contents, which are `V'`'s there
  have e0 : (dat E c).arrAt 0 cfg1.N = V' main_v2 := ((dat E c).arrAt_in 0 rfl cfg1.N).trans (hrest main_v2 (by decide)).symm
  have e1 : (dat E c).arrAt 1 cfg1.N = V' main_v2 := ((dat E c).arrAt_in 1 rfl cfg1.N).trans (hrest main_v2 (by decide)).symm
  -- off the arrays `V'` is the entry contents
  have eR : (Pipeline.unscopedRest (Ix := Unit) (Name := ℕ) (U := UR sig nD τ) (Lvl := ℕ) spec1 c (E c) : sProp 𝕄)
      = Pipeline.unscopedRest (Ix := Unit) (Name := ℕ) (U := UR sig nD τ) (Lvl := ℕ) spec1 c V' := by
    unfold Pipeline.unscopedRest
    exact bigSep_congr fun b hb => by rw [hrest b (fun h => (Finset.mem_sdiff.mp hb).2 (h ▸ v3_mem))]
  rw [e0, e1, ← h3, eR]
  iintro ⟨⟨Hl, Hr, H3⟩, HR⟩
  isplitr [HR]
  · isplitr [H3]
    · -- the two halves are the whole hold again
      iapply (pointsTo_share (PosShare.mem_left_op_right fullShare)).2
      isplitl [Hl]; · iexact Hl
      iexact Hr
    iexact H3
  iexact HR

end Cert.KernelIdeal.Pair

end
-- ==== Proof.KI.Segments.lean ====
/-
  The program as segments: the projection region, the reshape and transpose, the pairwise region, the concatenation.
  Between segments the core holds every unscoped buffer whole at the boundary's contents, its generator register at
  some state, and owes nothing. Each region takes its arrays out of the core's buffers on entry and puts them back, at
  what it wrote, on exit. The frame: every weakly fair execution terminates and the two arguments end as launched.
-/
import proofs.«136051_j51926154609300_1_alg».proof.Proof.Gen.KernelIdeal.Launch
import proofs.«136051_j51926154609300_1_alg».proof.Proof.Gen.KernelIdeal.Skeleton
import proofs.«136051_j51926154609300_1_alg».proof.Proof.Gen.KernelIdeal.Points
import proofs.«136051_j51926154609300_1_alg».proof.Proof.Gen.KernelIdeal.Regions
import proofs.«136051_j51926154609300_1_alg».proof.Proof.KI.Vals
import proofs.«136051_j51926154609300_1_alg».proof.Proof.KI.PairShares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each region's proof data, at the contents the region is entered with. -/
def pdats : (p : Fin 2) → (c : Dev nD) → Dat τ (Elt F) Unit ℕ (UR sig nD τ) ℕ (cfgs p) c
  | ⟨0, _⟩ => fun c => Proj.dat (E0 m) c
  | ⟨1, _⟩ => fun c => Pair.dat (E1 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the generator register at some state, and nothing owed. -/
abbrev rest (c : Dev nD) : sProp 𝕄 := iprop((∃ r, prngReg c r) ∗ ∃ W, owes (c : Thread nD τ) (0 : CellTallies nD τ sig Unit) W)

/-- The projection region's output array after it, and the buffers it leaves alone. -/
theorem projF (c : Dev nD) (w : Fin cfg0.W) : (pdats m 0 c).arrAt w cfg0.N = W1 m c (Pipeline.arrRef spec0 w) := by
  show (Proj.dat (E0 m) c).arrAt w cfg0.N = _
  match w with
  | ⟨0, _⟩ =>
    show (Proj.dat (E0 m) c).arrAt 0 cfg0.N = Function.update (Gen.V0 m c) (Proc.devRef .tc main_v0) ((Proj.dat (E0 m) c).arrAt 2 cfg0.N) (Proc.devRef .tc main_arg0)
    rw [Function.update_of_ne (StableHlo.devRef_ne_of_ne (show (main_arg0 : Ref sig .tc) ≠ main_v0 by decide)), (Proj.dat (E0 m) c).arrAt_in 0 rfl, Proj.A_eq]
  | ⟨1, _⟩ =>
    show (Proj.dat (E0 m) c).arrAt 1 cfg0.N = Function.update (Gen.V0 m c) (Proc.devRef .tc main_v0) ((Proj.dat (E0 m) c).arrAt 2 cfg0.N) (Proc.devRef .tc main_arg1)
    rw [Function.update_of_ne (StableHlo.devRef_ne_of_ne (show (main_arg1 : Ref sig .tc) ≠ main_v0 by decide)), (Proj.dat (E0 m) c).arrAt_in 1 rfl, Proj.A_eq]
  | ⟨2, _⟩ =>
    show (Proj.dat (E0 m) c).arrAt 2 cfg0.N = Function.update (Gen.V0 m c) (Proc.devRef .tc main_v0) ((Proj.dat (E0 m) c).arrAt 2 cfg0.N) (Proc.devRef .tc main_v0)
    rw [Function.update_self]
theorem projRest (c : Dev nD) : ∀ b : Ref sig .tc, b ∉ Finset.univ.image (Pipeline.arrRef spec0) → W1 m c b = E0 m c b :=
  fun b hb => Function.update_of_ne (StableHlo.devRef_ne_of_ne fun e => hb (by rw [e]; exact Finset.mem_image.mpr ⟨2, Finset.mem_univ _, rfl⟩)) _ _

set_option backward.isDefEq.respectTransparency.types false in
/-- THE PROJECTION REGION as a segment: entered from the launch contents, left with its output array at the product. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (E0 m) c).loose
  hwaits := Pipeline.hwaits_of_owed_zero _ _ _ _ L lv 0 fun _ _ => rfl
  pre c := iprop(StableHlo.held (c : Thread nD τ) (Pipeline.ucRefs τ sig) (Gen.V0 m c) ∗ rest c)
  post c := iprop(StableHlo.held (c : Thread nD τ) (Pipeline.ucRefs τ sig) (W1 m c) ∗ rest c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E0 m c) fun _ => rfl
    have hheld : (unscopedBufs (Ix := Unit) (Name := ℕ) (U := UR sig nD τ) (Lvl := ℕ) c (E0 m c) : sProp 𝕄) = StableHlo.held (c : Thread nD τ) (Pipeline.ucRefs τ sig) (Gen.V0 m c) :=
      Pipeline.unscopedBufs_held c (Gen.V0 m c)
    rw [hheld] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E0 m c) (fun b => W1 m c b) ((pdats m 0 c).arrAt · cfg0.N) (projF m c) (projRest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE PAIRWISE REGION as a segment: entered from the contents after the transpose, left with its output array written. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (Pair.body_obligation (E1 m) c).loose
  hwaits := Pipeline.hwaits_of_owed_zero _ _ _ _ L lv 1 fun _ _ => rfl
  pre c := iprop(StableHlo.held (c : Thread nD τ) (Pipeline.ucRefs τ sig) (W2 m c) ∗ rest c)
  post c := iprop(StableHlo.held (c : Thread nD τ) (Pipeline.ucRefs τ sig) (W3 m c) ∗ rest c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pair.arrays_in (E1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (Pair.inv_in (E1 m) c)
    unfold Pipeline.ΦA
    iintro ⟨Hp, -, Hr⟩
    isplitl [Hr]; · iexact Hr
    iexact Hp
  hout c := by
    refine (Pair.inv_out (E1 m) c).trans ?_
    rw [Pipeline.ownSems0_none]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (E1 m c))
        ⊢ (unscopedBufs (Ix := Unit) (Name := ℕ) (U := UR sig nD τ) (Lvl := ℕ) c (fun b => W3 m c b) : sProp 𝕄) :=
      Pair.arrays_out (E1 m) c (fun b => W3 m c b) (Function.update_self _ _ _)
        (fun b hb => Function.update_of_ne (StableHlo.devRef_ne_of_ne hb) _ _)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The launch element: the pipeline library's, at every region's staging cells. -/
abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (u₀ : UR sig nD τ) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => rest (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m emb₁ () 𝒱₀ L lv (fun _ _ => rfl) ρ (outs m) (pdats m) (O₀ := 0) (G := fun _ => iprop(emp)) u₀ hu₀
    (E := fun _ c => rest c) (hE0 ρ) (fun c => by iintro ⟨-, H⟩; iexact H)
    (reg0 m) (fun c => .rfl) (fun c => by rw [V1_eq]; exact .rfl)
    (reg1 m) (fun c => by rw [V2_eq]; exact .rfl) (fun c => by rw [V3_eq]; exact .rfl)

end Cert.KernelIdeal.Run

end
-- ==== Proof.KI.RunValue.lean ====
/-
  The kernel program's run with its result named: every weakly fair execution terminates with the result array at the
  last boundary's contents and the two arguments as launched.
-/
import proofs.«136051_j51926154609300_1_alg».proof.Proof.Gen.KernelIdeal.Launch
import proofs.«136051_j51926154609300_1_alg».proof.Proof.Gen.KernelIdeal.Skeleton
import proofs.«136051_j51926154609300_1_alg».proof.Proof.Gen.KernelIdeal.Points
import proofs.«136051_j51926154609300_1_alg».proof.Proof.KI.Segments
import proofs.«136051_j51926154609300_1_alg».proof.Proof.KI.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_value : θ_run defs (onTc (τ := τ) (main (F := F))) ⟨m, fun _ => 0, ρ⟩ (fun r => ∀ c : Dev nD,
      r.2.mem ((c.tc : Thread nD τ).loc main_v4) = W4 m c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (congrFun (V4_eq m c) (Proc.devRef .tc main_v4)), (h c).2⟩)
    (GenP.run_cond m emb₁ () 𝒱₀ L lv (fun _ _ => rfl) ρ (outs m) (pdats m) (O₀ := 0) (G := fun _ => iprop(emp)) u₀ hu₀
      (E := fun _ c => rest c) (hE0 ρ) (fun c => by iintro ⟨-, H⟩; iexact H)
      (reg0 m) (fun c => .rfl) (fun c => by rw [V1_eq]; exact .rfl)
      (reg1 m) (fun c => by rw [V2_eq]; exact .rfl) (fun c => by rw [V3_eq]; exact .rfl))

end Cert.KernelIdeal.Run

end
-- ==== Proof.Spec.lean ====
/-
  The result both programs compute, over the extended reals. With p[b,o,k] = Σ_kk x[b,kk]·w[5·o+k,kk] the
  projection of row b (feature o, component k):
      mbd[i,o] = Σ_j exp(−Σ_k |p[i,o,k] − p[j,o,k]|) − 1.
  The reference sums over all 512 rows j at once, each inner sum started from a zero; the kernel sums four
  blocks of 128 rows into an accumulator started from zero, each |·| added in turn to a running zero, the
  exponent formed as 0 − (…). Sums of extended reals are commutative and associative, and adding zero changes
  nothing, so the two arrangements agree with no finiteness assumption.
-/
import Idealize.ShloMosaic.PureOps.Ideal
import Idealize.ShloMosaic.Lib.ValueIdx

noncomputable section

open scoped BigOperators

namespace Cert.Spec

open Idealize.ShloMosaic

/-- The constant one, as both programs spell it. -/
abbrev one : EReal := Ideal.ofBits .f32 0x3F800000#32

/-- The projection: row b of x against row 5·o + k of w. -/
def proj (x : Fin 512 → Fin 1024 → EReal) (w : Fin 500 → Fin 1024 → EReal) (b : Fin 512) (o : Fin 100) (k : Fin 5) : EReal :=
  ∑ kk : Fin 1024, x b kk * w ⟨o.val * 5 + k.val, by have := o.isLt; have := k.isLt; omega⟩ kk

/-- |a − b| as the programs compute it. -/
def adiff (a b : EReal) : EReal := max (a - b) (-(a - b))

/-- The L1 distance between rows i and j at feature o. -/
def dist (p : Fin 512 → Fin 100 → Fin 5 → EReal) (i j : Fin 512) (o : Fin 100) : EReal :=
  ∑ k : Fin 5, adiff (p i o k) (p j o k)

/-- The minibatch-discrimination feature. -/
def mbd (p : Fin 512 → Fin 100 → Fin 5 → EReal) (i : Fin 512) (o : Fin 100) : EReal :=
  (∑ j : Fin 512, Ideal.exp (-(dist p i j o))) - one

/-- Row 128·b + jj. -/
def rowOf (b : Fin 4) (jj : Fin 128) : Fin 512 := ⟨128 * b.val + jj.val, by have := b.isLt; have := jj.isLt; omega⟩

/-- One grid point's contribution as the kernel arranges it: over the 128 rows of block b, the exponent 0 − (((((0 + d₀) + d₁) + d₂) + d₃) + d₄). -/
def blockSum (p : Fin 512 → Fin 100 → Fin 5 → EReal) (i : Fin 512) (b : Fin 4) (o : Fin 100) : EReal :=
  ∑ jj : Fin 128, Ideal.exp (0 - (((((0 + adiff (p i o 0) (p (rowOf b jj) o 0)) + adiff (p i o 1) (p (rowOf b jj) o 1))
    + adiff (p i o 2) (p (rowOf b jj) o 2)) + adiff (p i o 3) (p (rowOf b jj) o 3)) + adiff (p i o 4) (p (rowOf b jj) o 4)))

/-- A sum over 512 rows is the sum over four blocks of 128 rows. -/
private theorem sum_blocks (f : Fin 512 → EReal) :
    ∑ j : Fin 512, f j = ∑ b : Fin 4, ∑ jj : Fin 128, f (rowOf b jj) := by
  rw [← Fintype.sum_prod_type']
  symm
  apply Fintype.sum_equiv (finProdFinEquiv : Fin 4 × Fin 128 ≃ Fin 512)
  rintro ⟨b, jj⟩
  congr 1
  apply Fin.ext
  simp only [rowOf, finProdFinEquiv_apply_val]
  omega

/-- The kernel's arrangement: four block sums added in turn to zero, less one. -/
theorem kernel_form (p : Fin 512 → Fin 100 → Fin 5 → EReal) (i : Fin 512) (o : Fin 100) :
    ((((0 + blockSum p i 0 o) + blockSum p i 1 o) + blockSum p i 2 o) + blockSum p i 3 o) - one = mbd p i o := by
  unfold mbd dist blockSum
  rw [sum_blocks (fun j => Ideal.exp (-(∑ k : Fin 5, adiff (p i o k) (p j o k))))]
  simp only [Fin.sum_univ_four, Fin.sum_univ_five, zero_add, zero_sub]

/-- The reference's arrangement: both sums started from zero. -/
theorem ref_form (p : Fin 512 → Fin 100 → Fin 5 → EReal) (i : Fin 512) (o : Fin 100) :
    (0 + ∑ j : Fin 512, Ideal.exp (-(0 + ∑ k : Fin 5, adiff (p i o k) (p j o k)))) - one = mbd p i o := by
  unfold mbd dist
  simp only [zero_add]

end Cert.Spec

end
-- ==== Proof.KI.ValueHost.lean ====
/-
  The host operations between and after the regions, and the projection at an index. The array the pairwise
  region reads is the projection reshaped to [512,100,5] and transposed to [512,5,100]: its entry (b, k, o) is
  the product's entry (b, 5·o + k). The program's result is x joined along the second axis with the pairwise
  region's output array. Over the extended reals the product's entry (b, r) is Σ_kk x[b,kk]·w[r,kk].
-/
import proofs.«136051_j51926154609300_1_alg».proof.Proof.KI.Vals
import proofs.«136051_j51926154609300_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

open Cert.KernelIdeal.Run

/-- x is as launched when the join reads it: neither region writes it, nor does the reshape or the transpose. -/
private theorem W3_arg0 (c : Dev nD) : W3 m c main_arg0 = m ((c : Thread nD τ).loc main_arg0) := by
  rw [← V3_eq]
  exact (Gen.V3_of m (outs m) c main_arg0 (by decide)).trans <| (Gen.V2_of m (outs m) c main_arg0 (by decide)).trans <|
    (Gen.V1_of m (outs m) c main_arg0 (by decide)).trans rfl

/-- The last array: x joined with the pairwise region's output array. -/
theorem final_v4 (c : Dev nD) :
    W4 m c main_v4 = concatenate S512x1124 1 [⟨S512x1024, m ((c : Thread nD τ).loc main_arg0)⟩, ⟨S512x100, W3 m c main_v3⟩] concatenates_S512x1024_S512x100_S512x1124_d1 := by
  show StableHlo.after hostOps2 (W3 m c) (Proc.devRef .tc main_v4) = _
  after_results
  rw [W3_arg0]

/-- The pairwise region's output array after the region. -/
theorem W3_v3 (c : Dev nD) : W3 m c main_v3 = (Pair.dat (E1 m) c).arrAt 2 cfg1.N := by
  unfold W3
  rw [Function.update_self]

/-- The arguments are never written. -/
theorem W4_arg0 (c : Dev nD) : W4 m c main_arg0 = m ((c : Thread nD τ).loc main_arg0) := by
  rw [← V4_eq]
  exact Gen.V4_main_arg0 m (outs m) c
theorem W4_arg1 (c : Dev nD) : W4 m c main_arg1 = m ((c : Thread nD τ).loc main_arg1) := by
  rw [← V4_eq]
  exact Gen.V4_main_arg1 m (outs m) c

/-- The array the pairwise region reads, at (b, k, o): the projection region's output at (b, 5·o + k). -/
theorem E1_v2_apply (c : Dev nD) (b : Fin 512) (k : Fin 5) (o : Fin 100) :
    E1 m c main_v2 (ix3 b k o)
      = (Proj.dat (E0 m) c).arrAt 2 cfg0.N (ix2 b (⟨o.val * 5 + k.val, by have := o.isLt; have := k.isLt; omega⟩ : Fin 500)) := by
  show StableHlo.after hostOps1 (W1 m c) (Proc.devRef .tc main_v2) (ix3 b k o) = _
  after_results
  -- the transpose [0,2,1] reads the reshaped array at (b, o, k)
  refine (transpose_apply _ _ _ (ix3 b k o) (ix3 b o k)
    (fun a => match a with | ⟨0, _⟩ => rfl | ⟨1, _⟩ => rfl | ⟨2, _⟩ => rfl)).trans ?_
  -- the reshape keeps the row-major position: (b·100 + o)·5 + k = b·500 + (o·5 + k)
  refine (shapeCast_apply _ shapeCasts_S512x500_S512x100x5 (ix3 b o k)
    (ix2 b (⟨o.val * 5 + k.val, by have := o.isLt; have := k.isLt; omega⟩ : Fin 500))
    (by
      rewrite [Shape.rowMajor_val_two, Shape.rowMajor_val_three]
      have hb : b.val < 512 := b.isLt
      have ho : o.val < 100 := o.isLt
      have hk : k.val < 5 := k.isLt
      show b.val * 500 + (o.val * 5 + k.val) = (b.val * 100 + o.val) * 5 + k.val
      omega)).trans ?_
  -- and the array reshaped is what the projection region wrote back
  unfold W1
  rw [Function.update_self]

/-! ## The contraction's index maps, axis by axis

The product contracts the second axis of both operands: at output (i₀, i₁) and contraction position q the left
operand is read at (i₀, q) and the right at (i₁, q). -/

theorem lhs_axis0 (i : S512x500.Idx) (q : Cert.KernelIdeal.dot_S512x1024_S500x1024_S512x500_1_1_0_0_n_n.contr.Idx) :
    (Cert.KernelIdeal.dot_S512x1024_S500x1024_S512x500_1_1_0_0_n_n.lhsIdx i q 0).val = (i 0).val := by
  unfold DotDims.lhsIdx
  rw [dif_neg (show ¬(0 : Fin S512x1024.rank) ∈ Cert.KernelIdeal.dot_S512x1024_S500x1024_S512x500_1_1_0_0_n_n.lhsBatch by decide),
    dif_pos (show (0 : Fin S512x1024.rank) ∈ Cert.KernelIdeal.dot_S512x1024_S500x1024_S512x500_1_1_0_0_n_n.lhsNonContracting by decide)]
  rfl
theorem lhs_axis1 (i : S512x500.Idx) (q : Cert.KernelIdeal.dot_S512x1024_S500x1024_S512x500_1_1_0_0_n_n.contr.Idx) :
    (Cert.KernelIdeal.dot_S512x1024_S500x1024_S512x500_1_1_0_0_n_n.lhsIdx i q 1).val = (q ⟨0, by decide⟩).val :=
  Cert.KernelIdeal.dot_S512x1024_S500x1024_S512x500_1_1_0_0_n_n.lhsIdx_val_of_single rfl i q
theorem rhs_axis0 (i : S512x500.Idx) (q : Cert.KernelIdeal.dot_S512x1024_S500x1024_S512x500_1_1_0_0_n_n.contr.Idx) :
    (Cert.KernelIdeal.dot_S512x1024_S500x1024_S512x500_1_1_0_0_n_n.rhsIdx i q 0).val = (i 1).val := by
  unfold DotDims.rhsIdx
  rw [dif_neg (show ¬(0 : Fin S500x1024.rank) ∈ Cert.KernelIdeal.dot_S512x1024_S500x1024_S512x500_1_1_0_0_n_n.rhsBatch by decide),
    dif_pos (show (0 : Fin S500x1024.rank) ∈ Cert.KernelIdeal.dot_S512x1024_S500x1024_S512x500_1_1_0_0_n_n.rhsNonContracting by decide)]
  rfl
theorem rhs_axis1 (i : S512x500.Idx) (q : Cert.KernelIdeal.dot_S512x1024_S500x1024_S512x500_1_1_0_0_n_n.contr.Idx) :
    (Cert.KernelIdeal.dot_S512x1024_S500x1024_S512x500_1_1_0_0_n_n.rhsIdx i q 1).val = (q ⟨0, by decide⟩).val :=
  Cert.KernelIdeal.dot_S512x1024_S500x1024_S512x500_1_1_0_0_n_n.rhsIdx_val_of_single rfl i q

/-- The whole-buffer rectangles start at offset zero on both axes. -/
private theorem zero_offsets : (![0, 0] : Fin 2 → Nat) = fun _ => 0 := funext fun a => by fin_cases a <;> rfl

/-- The product at (b, r), over the extended reals. -/
theorem prod_apply (x : Vec Ideal S512x1024 .f32) (w : Vec Ideal S500x1024 .f32) (b : Fin 512) (r : Fin 500) :
    Proj.prod x w (ix2 b r) = ∑ kk : Fin 1024, x (ix2 b kk) * w (ix2 r kk) := by
  unfold Proj.prod
  -- one store over the whole block: the block is the stored value; the whole-buffer loads read x and w themselves
  rw [View.canon_unit_zero zero_offsets]
  simp only [View.ld_unit_zero (S := S512x1024) zero_offsets, View.ld_unit_zero (S := S500x1024) zero_offsets]
  unfold k0_pay1
  -- over the extended reals the narrowing to bf16 changes nothing and the product into a zero accumulator is the sum
  refine (Ideal.matmul_constant_zero_apply Cert.KernelIdeal.dot_S512x1024_S500x1024_S512x500_1_1_0_0_n_n none _ _ (ix2 b r)).trans ?_
  rw [← Equiv.sum_comp (contrEquiv1 Cert.KernelIdeal.dot_S512x1024_S500x1024_S512x500_1_1_0_0_n_n 1024 rfl rfl).symm]
  refine Finset.sum_congr rfl fun kk _ => ?_
  have hk := contrEquiv1_symm_val Cert.KernelIdeal.dot_S512x1024_S500x1024_S512x500_1_1_0_0_n_n 1024 rfl rfl kk
  have el : Cert.KernelIdeal.dot_S512x1024_S500x1024_S512x500_1_1_0_0_n_n.lhsIdx (ix2 b r)
      ((contrEquiv1 Cert.KernelIdeal.dot_S512x1024_S500x1024_S512x500_1_1_0_0_n_n 1024 rfl rfl).symm kk) = ix2 b kk :=
    funext fun a => Fin.ext (by
      match a with
      | ⟨0, _⟩ => exact lhs_axis0 _ _
      | ⟨1, _⟩ => exact (lhs_axis1 _ _).trans hk)
  have er : Cert.KernelIdeal.dot_S512x1024_S500x1024_S512x500_1_1_0_0_n_n.rhsIdx (ix2 b r)
      ((contrEquiv1 Cert.KernelIdeal.dot_S512x1024_S500x1024_S512x500_1_1_0_0_n_n 1024 rfl rfl).symm kk) = ix2 r kk :=
    funext fun a => Fin.ext (by
      match a with
      | ⟨0, _⟩ => exact rhs_axis0 _ _
      | ⟨1, _⟩ => exact (rhs_axis1 _ _).trans hk)
  show x (Cert.KernelIdeal.dot_S512x1024_S500x1024_S512x500_1_1_0_0_n_n.lhsIdx (ix2 b r) _)
      * w (Cert.KernelIdeal.dot_S512x1024_S500x1024_S512x500_1_1_0_0_n_n.rhsIdx (ix2 b r) _) = _
  rw [el, er]

end Cert.KernelIdeal.Val

end
-- ==== Proof.KI.ValueBlocks.lean ====
/-
  From blocks to arrays. The projection region's one block is the whole array, so its output array ends at the
  product of its two argument arrays. In the pairwise region point t = 4·a + b reads rows 128·a … of the
  transposed projection through its first window and rows 128·b … through its second, and the output array's
  row R is written once, at point 4·(R / 128) + 3, from the accumulator that point leaves.
-/
import proofs.«136051_j51926154609300_1_alg».proof.Proof.KI.Vals
import proofs.«136051_j51926154609300_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

/-- The projection region's index maps at its one point: every window's block is the whole array. -/
private theorem proj_index : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The first window's block is the first argument array. -/
private theorem proj_blk0 (c : Dev nD) (t : Fin cfg0.N) : Proj.blk V c 0 t = V c main_arg0 := by
  obtain ⟨e0, e1, -⟩ := proj_index t
  unfold Proj.blk
  funext y
  rw [View.read_apply]
  show V c main_arg0 (((cfg0.win 0).blk t).view.emb y) = V c main_arg0 y
  congr 1
  funext a; apply Fin.ext
  match a with
  | ⟨0, _⟩ => show win0_0.index t (0 : Fin 2) * 512 + 1 * (y 0).val = (y 0).val; omega
  | ⟨1, _⟩ => show win0_0.index t (1 : Fin 2) * 1024 + 1 * (y 1).val = (y 1).val; omega

/-- The second window's block is the second argument array. -/
private theorem proj_blk1 (c : Dev nD) (t : Fin cfg0.N) : Proj.blk V c 1 t = V c main_arg1 := by
  obtain ⟨-, -, e0, e1, -⟩ := proj_index t
  unfold Proj.blk
  funext y
  rw [View.read_apply]
  show V c main_arg1 (((cfg0.win 1).blk t).view.emb y) = V c main_arg1 y
  congr 1
  funext a; apply Fin.ext
  match a with
  | ⟨0, _⟩ => show win0_1.index t (0 : Fin 2) * 500 + 1 * (y 0).val = (y 0).val; omega
  | ⟨1, _⟩ => show win0_1.index t (1 : Fin 2) * 1024 + 1 * (y 1).val = (y 1).val; omega

/-- Reading any contents of the output array through the one point's block gives them back, and the write-back moves all of a block. -/
private theorem proj_cut_eq_read (t : Fin cfg0.N) (G : S512x500.Idx → Elt F .f32) :
    (cfg0.win 2).cut (grid0.coords t) G = ((cfg0.win 2).blk t).view.read (Elt F) G := by
  obtain ⟨-, -, -, -, e0, e1⟩ := proj_index t
  funext y
  rw [View.read_apply]
  show G y = G (((cfg0.win 2).blk t).view.emb y)
  congr 1
  funext a; apply Fin.ext
  match a with
  | ⟨0, _⟩ => show (y 0).val = win0_2.index t (0 : Fin 2) * 512 + 1 * (y 0).val; omega
  | ⟨1, _⟩ => show (y 1).val = win0_2.index t (1 : Fin 2) * 500 + 1 * (y 1).val; omega

/-- What the one point writes back is the whole product, read through the whole-array block. -/
private theorem proj_flushed (c : Dev nD) (t : Fin cfg0.N) :
    (Proj.dat V c).flushed 2 t = ((cfg0.win 2).blk t).view.read (Elt F) (Proj.prod (V c main_arg0) (V c main_arg1)) := by
  show (cfg0.win 2).cut (grid0.coords t) ((Proj.dat V c).after 2 t) = _
  rw [Proj.after_2, proj_blk0, proj_blk1]
  exact proj_cut_eq_read t _

/-- The projection region leaves the product of the two argument arrays in its output array. -/
theorem proj_out (c : Dev nD) : (Proj.dat V c).arrAt 2 cfg0.N = Proj.prod (V c main_arg0) (V c main_arg1) :=
  (Proj.dat V c).arrAt_eq_of_cover 2 _ (fun t _ => proj_flushed V c t) fun i => ⟨t0_0, flush0_2 t0_0, by
    obtain ⟨-, -, -, -, e0, e1⟩ := proj_index t0_0
    have h0 : (i 0).val < 512 := idx2_lt0 i
    have h1 : (i 1).val < 500 := idx2_lt1 i
    show i ∈ ((View.whole main_v0).slice (win0_2.rect t0_0)).set
    rw [View.set_slice_whole, Rect.mem_set_unit]
    intro a
    match a with
    | ⟨0, _⟩ => show win0_2.index t0_0 (0 : Fin 2) * 512 ≤ (i 0).val ∧ (i 0).val < win0_2.index t0_0 (0 : Fin 2) * 512 + 512; omega
    | ⟨1, _⟩ => show win0_2.index t0_0 (1 : Fin 2) * 500 ≤ (i 1).val ∧ (i 1).val < win0_2.index t0_0 (1 : Fin 2) * 500 + 500; omega⟩

/-- The pairwise region's index maps over its grid: the first window's row block is t / 4, the second's t % 4,
    the output's t / 4; no window moves along its other axes. -/
private theorem pair_index : ∀ t : Fin cfg1.N,
    win1_0.index t (0 : Fin 3) = t.val / 4 ∧ win1_0.index t (1 : Fin 3) = 0 ∧ win1_0.index t (2 : Fin 3) = 0
    ∧ win1_1.index t (0 : Fin 3) = t.val % 4 ∧ win1_1.index t (1 : Fin 3) = 0 ∧ win1_1.index t (2 : Fin 3) = 0
    ∧ win1_2.index t (0 : Fin 2) = t.val / 4 ∧ win1_2.index t (1 : Fin 2) = 0 :=
  (by decide +kernel : ∀ t : Fin grid1.N, _)

/-- The first window's block at point t holds rows 128·(t / 4) + r of the array. -/
theorem pair_blk0_apply (c : Dev nD) (t : Fin cfg1.N) (r : Fin 128) (k : Fin 5) (o : Fin 100) :
    Pair.blk V c 0 t (ix3 r k o)
      = V c main_v2 (ix3 (⟨128 * (t.val / 4) + r.val, by have ht : t.val < 16 := lt_of_lt_of_eq t.isLt N_1; have := r.isLt; omega⟩ : Fin 512) k o) := by
  obtain ⟨e0, e1, e2, -⟩ := pair_index t
  unfold Pair.blk
  rw [View.read_apply]
  show V c main_v2 (((cfg1.win 0).blk t).view.emb (ix3 r k o)) = V c main_v2 _
  congr 1
  funext a; apply Fin.ext
  match a with
  | ⟨0, _⟩ => show win1_0.index t (0 : Fin 3) * 128 + 1 * r.val = 128 * (t.val / 4) + r.val; omega
  | ⟨1, _⟩ => show win1_0.index t (1 : Fin 3) * 5 + 1 * k.val = k.val; omega
  | ⟨2, _⟩ => show win1_0.index t (2 : Fin 3) * 100 + 1 * o.val = o.val; omega

/-- The second window's block at point t holds rows 128·(t % 4) + r of the array. -/
theorem pair_blk1_apply (c : Dev nD) (t : Fin cfg1.N) (r : Fin 128) (k : Fin 5) (o : Fin 100) :
    Pair.blk V c 1 t (ix3 r k o)
      = V c main_v2 (ix3 (⟨128 * (t.val % 4) + r.val, by have := r.isLt; omega⟩ : Fin 512) k o) := by
  obtain ⟨-, -, -, e0, e1, e2, -⟩ := pair_index t
  unfold Pair.blk
  rw [View.read_apply]
  show V c main_v2 (((cfg1.win 1).blk t).view.emb (ix3 r k o)) = V c main_v2 _
  congr 1
  funext a; apply Fin.ext
  match a with
  | ⟨0, _⟩ => show win1_1.index t (0 : Fin 3) * 128 + 1 * r.val = 128 * (t.val % 4) + r.val; omega
  | ⟨1, _⟩ => show win1_1.index t (1 : Fin 3) * 5 + 1 * k.val = k.val; omega
  | ⟨2, _⟩ => show win1_1.index t (2 : Fin 3) * 100 + 1 * o.val = o.val; omega

/-- Equal positions give equal accumulators. -/
private theorem accAt_congr (c : Dev nD) {n n' : ℕ} (h : n = n') (hn : n < cfg1.N) (hn' : n' < cfg1.N) :
    Pair.accAt V c n hn = Pair.accAt V c n' hn' := by
  subst h; rfl

/-- The pairwise region's output array as one function of the index: row R, lane o holds the result of the
    accumulator that point 4·(R / 128) + 3 leaves, at row R % 128, lane o. -/
private def pairOut (c : Dev nD) : S512x100.Idx → Elt F .f32 := fun i =>
  Pair.result (Pair.accAt V c (4 * ((i 0).val / 128) + 3) (by have := idx2_lt0 i; rw [show cfg1.N = 16 from N_1]; omega))
    (ix2 (⟨(i 0).val % 128, Nat.mod_lt _ (by decide)⟩ : Fin 128) (i 1))

/-- That function at an index of row 128·(n / 4) + y₀ for a last-column point n: point n's result at y. -/
private theorem pairOut_apply (c : Dev nD) (i : S512x100.Idx) (n : ℕ) (hn : n < cfg1.N) (y : S128x100.Idx)
    (h0 : (i 0).val = 128 * (n / 4) + (y 0).val) (h3 : n % 4 = 3) (h1 : (i 1).val = (y 1).val) :
    pairOut V c i = Pair.result (Pair.accAt V c n hn) y := by
  have hy0 : (y 0).val < 128 := idx2_lt0 y
  have e : 4 * ((i 0).val / 128) + 3 = n := by omega
  have hy : (ix2 (⟨(i 0).val % 128, Nat.mod_lt _ (by decide)⟩ : Fin 128) (i 1) : S128x100.Idx) = y := by
    funext a
    match a with
    | ⟨0, _⟩ => apply Fin.ext; show (i 0).val % 128 = (y 0).val; omega
    | ⟨1, _⟩ => apply Fin.ext; show (i 1).val = (y 1).val; omega
  unfold pairOut
  rw [hy]
  exact congrArg (fun s => Pair.result s y) (accAt_congr V c e _ _)

/-- What a last-column point writes back is its block of that function. -/
private theorem pair_flushed (c : Dev nD) (t : Fin cfg1.N) (hf : (cfg1.win 2).flush t = true) :
    (Pair.dat V c).flushed 2 t = ((cfg1.win 2).blk t).view.read (Elt F) (pairOut V c) := by
  have h3 : t.val % 4 = 3 := (flush1_2 t).mp hf
  obtain ⟨-, -, -, -, -, -, e0, e1⟩ := pair_index t
  show (cfg1.win 2).cut (grid1.coords t) ((Pair.dat V c).after 2 t) = _
  rw [Pair.after_2]
  funext y
  rw [View.read_apply]
  show Pair.result (Pair.accAt V c t.val t.isLt) y = pairOut V c (((cfg1.win 2).blk t).view.emb y)
  refine (pairOut_apply V c _ t.val t.isLt y ?_ h3 ?_).symm
  · show win1_2.index t (0 : Fin 2) * 128 + 1 * (y 0).val = 128 * (t.val / 4) + (y 0).val; omega
  · show win1_2.index t (1 : Fin 2) * 100 + 1 * (y 1).val = (y 1).val; omega

/-- Row R of the pairwise region's output array is the result of the accumulator that point 4·(R / 128) + 3 leaves, at row R % 128. -/
theorem pair_out_apply (c : Dev nD) (R : Fin 512) (o : Fin 100) :
    (Pair.dat V c).arrAt 2 cfg1.N (ix2 R o)
      = Pair.result (Pair.accAt V c (4 * (R.val / 128) + 3) (by have := R.isLt; rw [show cfg1.N = 16 from N_1]; omega))
          (ix2 (⟨R.val % 128, Nat.mod_lt _ (by decide)⟩ : Fin 128) o) := by
  have hR := R.isLt
  have ho := o.isLt
  have hN : cfg1.N = 16 := N_1
  obtain ⟨t, htv⟩ : ∃ t : Fin cfg1.N, t.val = 4 * (R.val / 128) + 3 := ⟨⟨4 * (R.val / 128) + 3, by rw [hN]; omega⟩, rfl⟩
  have hf : (cfg1.win 2).flush t = true := (flush1_2 t).mpr (by rw [htv]; omega)
  obtain ⟨-, -, -, -, -, -, e0, e1⟩ := pair_index t
  have hi : (ix2 R o : S512x100.Idx) ∈ ((cfg1.win 2).blk t).view.set := by
    show _ ∈ ((View.whole main_v3).slice (win1_2.rect t)).set
    rw [View.set_slice_whole, Rect.mem_set_unit]
    intro a
    match a with
    | ⟨0, _⟩ => show win1_2.index t (0 : Fin 2) * 128 ≤ R.val ∧ R.val < win1_2.index t (0 : Fin 2) * 128 + 128; omega
    | ⟨1, _⟩ => show win1_2.index t (1 : Fin 2) * 100 ≤ o.val ∧ o.val < win1_2.index t (1 : Fin 2) * 100 + 100; omega
  rw [(Pair.dat V c).arrAt_apply_of_mem 2 (pairOut V c) (pair_flushed V c) cfg1.N t (ix2 R o) t.isLt hf hi]
  rfl

end Cert.KernelIdeal.Val

end
-- ==== Proof.KI.ValueStep.lean ====
/-
  One accumulator update, read at an index over the extended reals: at row r and lane o it adds to the
  accumulator the sum over the 128 rows jj of the second block of exp(0 − (((((0 + d₀) + d₁) + d₂) + d₃) + d₄)),
  dₖ = |x0[r,k,o] − x1[jj,k,o]|; the reset is zero everywhere; the result is the accumulator less one.
-/
import proofs.«136051_j51926154609300_1_alg».proof.Proof.KI.PairBody
import proofs.«136051_j51926154609300_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Pair

open Idealize.ShloMosaic Idealize.ShloMosaic.ValueIdx Cert.KernelIdeal Cert.KernelIdeal.Gen Cert.Spec

/-- The reset accumulator is zero at every entry. -/
theorem accZero_apply (r : Fin 128) (o : Fin 100) : accZero (F := Ideal) (ix2 r o) = 0 := by
  unfold accZero k1_pay3
  rw [shapeCast_self]
  exact Ideal.ofBits_zero_f32

/-- The stored result is the accumulator less one. -/
theorem result_apply (s : Vec Ideal S128x100 .f32) (r : Fin 128) (o : Fin 100) :
    result s (ix2 r o) = s (ix2 r o) - Cert.Spec.one := by
  rfl

/-- The slice [:, 0, :] read at (r, 0, o) is the block at (r, 0, o). -/
private theorem ld_rK0 (x : Vec Ideal S128x5x100 .f32) (r : Fin 128) (o : Fin 100) :
    View.ld x rK0 (ix3 r (0 : Fin 1) o) = x (ix3 r 0 o) := by
  show x _ = x _
  congr 1
  funext a
  apply Fin.ext
  match a with
  | ⟨0, _⟩ => show 0 + 1 * r.val = r.val; omega
  | ⟨1, _⟩ => show 0 + 1 * 0 = 0; rfl
  | ⟨2, _⟩ => show 0 + 1 * o.val = o.val; omega

/-- The slice [:, 1, :] read at (r, 0, o) is the block at (r, 1, o). -/
private theorem ld_rK1 (x : Vec Ideal S128x5x100 .f32) (r : Fin 128) (o : Fin 100) :
    View.ld x rK1 (ix3 r (0 : Fin 1) o) = x (ix3 r 1 o) := by
  show x _ = x _
  congr 1
  funext a
  apply Fin.ext
  match a with
  | ⟨0, _⟩ => show 0 + 1 * r.val = r.val; omega
  | ⟨1, _⟩ => show 1 + 1 * 0 = 1; rfl
  | ⟨2, _⟩ => show 0 + 1 * o.val = o.val; omega

/-- The slice [:, 2, :] read at (r, 0, o) is the block at (r, 2, o). -/
private theorem ld_rK2 (x : Vec Ideal S128x5x100 .f32) (r : Fin 128) (o : Fin 100) :
    View.ld x rK2 (ix3 r (0 : Fin 1) o) = x (ix3 r 2 o) := by
  show x _ = x _
  congr 1
  funext a
  apply Fin.ext
  match a with
  | ⟨0, _⟩ => show 0 + 1 * r.val = r.val; omega
  | ⟨1, _⟩ => show 2 + 1 * 0 = 2; rfl
  | ⟨2, _⟩ => show 0 + 1 * o.val = o.val; omega

/-- The slice [:, 3, :] read at (r, 0, o) is the block at (r, 3, o). -/
private theorem ld_rK3 (x : Vec Ideal S128x5x100 .f32) (r : Fin 128) (o : Fin 100) :
    View.ld x rK3 (ix3 r (0 : Fin 1) o) = x (ix3 r 3 o) := by
  show x _ = x _
  congr 1
  funext a
  apply Fin.ext
  match a with
  | ⟨0, _⟩ => show 0 + 1 * r.val = r.val; omega
  | ⟨1, _⟩ => show 3 + 1 * 0 = 3; rfl
  | ⟨2, _⟩ => show 0 + 1 * o.val = o.val; omega

/-- The slice [:, 4, :] read at (r, 0, o) is the block at (r, 4, o). -/
private theorem ld_rK4 (x : Vec Ideal S128x5x100 .f32) (r : Fin 128) (o : Fin 100) :
    View.ld x rK4 (ix3 r (0 : Fin 1) o) = x (ix3 r 4 o) := by
  show x _ = x _
  congr 1
  funext a
  apply Fin.ext
  match a with
  | ⟨0, _⟩ => show 0 + 1 * r.val = r.val; omega
  | ⟨1, _⟩ => show 4 + 1 * 0 = 4; rfl
  | ⟨2, _⟩ => show 0 + 1 * o.val = o.val; omega

/-- A [128,1,100] column spread along the middle axis reads its own row. -/
private theorem bc_row (a : FVec Ideal S128x1x100 .f32) (h : S128x1x100.Broadcasts S128x128x100)
    (r : Fin 128) (jj : Fin 128) (o : Fin 100) :
    broadcastTo S128x128x100 a h (ix3 r jj o) = a (ix3 r (0 : Fin 1) o) := by
  refine broadcastTo_apply a h (ix3 r jj o) (ix3 r (0 : Fin 1) o) fun ax => ?_
  match ax with
  | ⟨0, _⟩ => rfl
  | ⟨1, _⟩ => rfl
  | ⟨2, _⟩ => rfl

/-- A [1,128,100] row block spread along the leading axis reads the row of the middle coordinate. -/
private theorem bc_col (b : FVec Ideal S1x128x100 .f32) (h : S1x128x100.Broadcasts S128x128x100)
    (r : Fin 128) (jj : Fin 128) (o : Fin 100) :
    broadcastTo S128x128x100 b h (ix3 r jj o) = b (ix3 (0 : Fin 1) jj o) := by
  refine broadcastTo_apply b h (ix3 r jj o) (ix3 (0 : Fin 1) jj o) fun ax => ?_
  match ax with
  | ⟨0, _⟩ => rfl
  | ⟨1, _⟩ => rfl
  | ⟨2, _⟩ => rfl

/-- A [128,1,100] column viewed as [128,100] reads (r, 0, o) at (r, o). -/
private theorem sc_drop (a : FVec Ideal S128x1x100 .f32) (h : S128x1x100.ShapeCasts S128x100) (r : Fin 128) (o : Fin 100) :
    shapeCast S128x100 a h (ix2 r o) = a (ix3 r (0 : Fin 1) o) :=
  shapeCast_apply a h _ _ (by
    rw [Shape.rowMajor_val_three, Shape.rowMajor_val_two]
    show (r.val * 1 + 0) * 100 + o.val = r.val * 100 + o.val
    omega)

/-- One absolute difference of a column against a row block, at (r, jj, o). -/
private theorem diff_apply (a b : FVec Ideal S128x1x100 .f32)
    (h1 : S128x1x100.ShapeCasts S128x100) (h2 : S128x100.ShapeCasts S128x1x100) (h3 : S128x100.ShapeCasts S1x128x100)
    (hb1 : S128x1x100.Broadcasts S128x128x100) (hb2 : S1x128x100.Broadcasts S128x128x100)
    (r : Fin 128) (jj : Fin 128) (o : Fin 100) :
    absf (F := Ideal) (subf (broadcastTo S128x128x100 (shapeCast S128x1x100 (shapeCast S128x100 a h1) h2) hb1)
        (broadcastTo S128x128x100 (shapeCast S1x128x100 (shapeCast S128x100 b h1) h3) hb2)) (ix3 r jj o)
      = adiff (a (ix3 r (0 : Fin 1) o)) (b (ix3 jj (0 : Fin 1) o)) := by
  show max (_ - _) (-(_ - _)) = _
  rw [bc_row, bc_col, shapeCast_shapeCast, shapeCast_ab_1ab_apply, sc_drop]
  rfl

/-- The index the lane sum inserts at row r, lane o, for the summed row jj, is (r, jj, o). -/
private theorem lift_mid (h : S128x128x100.Reduces [1] S128x100) (r : Fin 128) (jj : Fin 128) (o : Fin 100) :
    h.lift (ix2 r o) jj = ix3 r jj o := by
  funext a
  apply Fin.ext
  match a with
  | ⟨0, _⟩ => rfl
  | ⟨1, _⟩ => rfl
  | ⟨2, _⟩ => rfl

/-- The sum over the middle axis of a [128,128,100] array, read at (r, o), is the sum over jj of the array at (r, jj, o). -/
private theorem lane_sum (v : FVec Ideal S128x128x100 .f32) (h : S128x128x100.Reduces [1] S128x100) (hφ : FKind.Formats .f32)
    (hacc : (0x00000000#32 : BitVec 32) = 0x00000000#32) (r : Fin 128) (o : Fin 100) :
    multiReduction (F := Ideal) .add [1] S128x100 v 0x00000000#32 h hφ hacc (ix2 r o) = ∑ jj : Fin 128, v (ix3 r jj o) := by
  refine (Ideal.multiReduction_add_single v 0x00000000#32 h hφ hacc (ix2 r o)).trans ?_
  show ∑ jj : Fin 128, v (h.lift (ix2 r o) jj) = _
  refine Finset.sum_congr rfl fun jj _ => ?_
  rw [lift_mid]

/-- One update at (r, o). -/
theorem accStep_apply (x0 x1 : Vec Ideal S128x5x100 .f32) (s : Vec Ideal S128x100 .f32) (r : Fin 128) (o : Fin 100) :
    accStep x0 x1 s (ix2 r o) = s (ix2 r o) + ∑ jj : Fin 128, Ideal.exp (0 - (((((0
        + adiff (x0 (ix3 r 0 o)) (x1 (ix3 jj 0 o))) + adiff (x0 (ix3 r 1 o)) (x1 (ix3 jj 1 o)))
        + adiff (x0 (ix3 r 2 o)) (x1 (ix3 jj 2 o))) + adiff (x0 (ix3 r 3 o)) (x1 (ix3 jj 3 o)))
        + adiff (x0 (ix3 r 4 o)) (x1 (ix3 jj 4 o)))) := by
  unfold accStep k1_pay1 k1_pay4 k1_pay5
  rw [shapeCast_self, addf_apply]
  refine congrArg (s (ix2 r o) + ·) ((lane_sum _ _ _ _ r o).trans ?_)
  refine Finset.sum_congr rfl fun jj _ => ?_
  show Ideal.exp (Ideal.ofBits .f32 0x00000000#32 - (((((Ideal.ofBits .f32 0x00000000#32
      + absf (F := Ideal) _ (ix3 r jj o)) + absf (F := Ideal) _ (ix3 r jj o)) + absf (F := Ideal) _ (ix3 r jj o))
      + absf (F := Ideal) _ (ix3 r jj o)) + absf (F := Ideal) _ (ix3 r jj o))) = _
  rw [diff_apply, diff_apply, diff_apply, diff_apply, diff_apply, Ideal.ofBits_zero_f32,
    ld_rK0, ld_rK0, ld_rK1, ld_rK1, ld_rK2, ld_rK2, ld_rK3, ld_rK3, ld_rK4, ld_rK4]

end Cert.KernelIdeal.Pair

end
-- ==== Proof.KI.Value.lean ====
/-
  The kernel program's result over the extended reals: the pairwise region's output array at (R, o) is the
  specification's feature of the projection of the two arguments. Row R is written at the last column of row block
  R / 128 from the accumulator, which by then has taken the four column blocks' updates in turn from zero; each
  update's rows are rows of the transposed projection, whose entries are the product's.
-/
import proofs.«136051_j51926154609300_1_alg».proof.Proof.KI.ValueHost
import proofs.«136051_j51926154609300_1_alg».proof.Proof.KI.ValueBlocks
import proofs.«136051_j51926154609300_1_alg».proof.Proof.KI.ValueStep
import proofs.«136051_j51926154609300_1_alg».proof.Proof.Spec

set_option maxRecDepth 16384

noncomputable section

open scoped BigOperators

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Run

variable (m : (ℓ : Loc nD τ sig) → Buf (Elt Ideal) ℓ)

/-- The two arguments as functions of their coordinates. -/
abbrev xOf (c : Dev nD) : Fin 512 → Fin 1024 → EReal := fun b kk => m ((c : Thread nD τ).loc main_arg0) (ix2 b kk)
abbrev wOf (c : Dev nD) : Fin 500 → Fin 1024 → EReal := fun r kk => m ((c : Thread nD τ).loc main_arg1) (ix2 r kk)

/-- The array the pairwise region reads, at (b, k, o): the projection of row b at feature o, component k. -/
theorem E1_v2_proj (c : Dev nD) (b : Fin 512) (k : Fin 5) (o : Fin 100) :
    E1 m c main_v2 (ix3 b k o) = Cert.Spec.proj (xOf m c) (wOf m c) b o k := by
  rw [E1_v2_apply, proj_out (E0 m) c, prod_apply]
  rfl

/-- Past a first column, the accumulator is one update of what the point before left. -/
private theorem acc_next (c : Dev nD) (n : ℕ) (h : n + 1 < cfg1.N) (hm : ¬(n + 1) % 4 = 0) :
    Pair.accAt (E1 m) c (n + 1) h
      = Pair.accStep (Pair.blk (E1 m) c 0 ⟨n + 1, h⟩) (Pair.blk (E1 m) c 1 ⟨n + 1, h⟩)
          (Pair.accAt (E1 m) c n (Nat.lt_of_succ_lt h)) :=
  Pair.accAt_next (E1 m) c ⟨n + 1, h⟩ hm

/-- At a first column, the accumulator is one update of zero. -/
private theorem acc_first (c : Dev nD) (n : ℕ) (h : n < cfg1.N) (hm : n % 4 = 0) :
    Pair.accAt (E1 m) c n h
      = Pair.accStep (Pair.blk (E1 m) c 0 ⟨n, h⟩) (Pair.blk (E1 m) c 1 ⟨n, h⟩) (Pair.accZero (F := Ideal)) :=
  Pair.accAt_first (E1 m) c ⟨n, h⟩ hm

/-- The first window's block at point 4·a + b, at (r, k, o): the projection of row 128·a + r. -/
private theorem blk0_at (c : Dev nD) (n : ℕ) (h : n < cfg1.N) (a b : Fin 4) (hn : n = 4 * a.val + b.val)
    (r : Fin 128) (k : Fin 5) (o : Fin 100) :
    Pair.blk (E1 m) c 0 ⟨n, h⟩ (ix3 r k o) = Cert.Spec.proj (xOf m c) (wOf m c) (Cert.Spec.rowOf a r) o k := by
  have ha := a.isLt; have hb := b.isLt; have hr := r.isLt
  rw [pair_blk0_apply, E1_v2_proj]
  exact congrArg (fun B => Cert.Spec.proj (xOf m c) (wOf m c) B o k)
    (Fin.ext (by show 128 * (n / 4) + r.val = 128 * a.val + r.val; omega))

/-- The second window's block at point 4·a + b, at (jj, k, o): the projection of row 128·b + jj. -/
private theorem blk1_at (c : Dev nD) (n : ℕ) (h : n < cfg1.N) (a b : Fin 4) (hn : n = 4 * a.val + b.val)
    (jj : Fin 128) (k : Fin 5) (o : Fin 100) :
    Pair.blk (E1 m) c 1 ⟨n, h⟩ (ix3 jj k o) = Cert.Spec.proj (xOf m c) (wOf m c) (Cert.Spec.rowOf b jj) o k := by
  have ha := a.isLt; have hb := b.isLt; have hj := jj.isLt
  rw [pair_blk1_apply, E1_v2_proj]
  exact congrArg (fun B => Cert.Spec.proj (xOf m c) (wOf m c) B o k)
    (Fin.ext (by show 128 * (n % 4) + jj.val = 128 * b.val + jj.val; omega))

/-- One update at point 4·a + b, at (r, o): the block sum of row 128·a + r against column block b is added. -/
private theorem step_at (c : Dev nD) (n : ℕ) (h : n < cfg1.N) (a b : Fin 4) (hn : n = 4 * a.val + b.val)
    (r : Fin 128) (o : Fin 100) (s : Vec Ideal S128x100 .f32) :
    Pair.accStep (Pair.blk (E1 m) c 0 ⟨n, h⟩) (Pair.blk (E1 m) c 1 ⟨n, h⟩) s (ix2 r o)
      = s (ix2 r o) + Cert.Spec.blockSum (Cert.Spec.proj (xOf m c) (wOf m c)) (Cert.Spec.rowOf a r) b o := by
  rw [Pair.accStep_apply]
  simp only [blk0_at m c n h a b hn, blk1_at m c n h a b hn]
  rfl

/-- The accumulator the last column of row block a leaves, at (r, o): the four block sums added in turn to zero. -/
private theorem acc_last (c : Dev nD) (a : Fin 4) (r : Fin 128) (o : Fin 100) (h3 : 4 * a.val + 3 < cfg1.N) :
    Pair.accAt (E1 m) c (4 * a.val + 3) h3 (ix2 r o)
      = (((0 + Cert.Spec.blockSum (Cert.Spec.proj (xOf m c) (wOf m c)) (Cert.Spec.rowOf a r) 0 o)
          + Cert.Spec.blockSum (Cert.Spec.proj (xOf m c) (wOf m c)) (Cert.Spec.rowOf a r) 1 o)
          + Cert.Spec.blockSum (Cert.Spec.proj (xOf m c) (wOf m c)) (Cert.Spec.rowOf a r) 2 o)
          + Cert.Spec.blockSum (Cert.Spec.proj (xOf m c) (wOf m c)) (Cert.Spec.rowOf a r) 3 o := by
  have h2 : 4 * a.val + 2 < cfg1.N := Nat.lt_of_succ_lt h3
  have h1 : 4 * a.val + 1 < cfg1.N := Nat.lt_of_succ_lt h2
  have h0 : 4 * a.val < cfg1.N := Nat.lt_of_succ_lt h1
  rw [acc_next m c (4 * a.val + 2) h3 (by omega), step_at m c _ h3 a 3 rfl r o,
    acc_next m c (4 * a.val + 1) h2 (by omega), step_at m c _ h2 a 2 rfl r o,
    acc_next m c (4 * a.val) h1 (by omega), step_at m c _ h1 a 1 rfl r o,
    acc_first m c (4 * a.val) h0 (by omega), step_at m c _ h0 a 0 rfl r o,
    Pair.accZero_apply]

/-- The pairwise region's output array at (R, o). -/
theorem mbd_value (c : Dev nD) (R : Fin 512) (o : Fin 100) :
    W3 m c main_v3 (ix2 R o) = Cert.Spec.mbd (Cert.Spec.proj (xOf m c) (wOf m c)) R o := by
  have hR := R.isLt
  have hN : 4 * (R.val / 128) + 3 < cfg1.N := by rw [show cfg1.N = 16 from N_1]; omega
  have key := acc_last m c (⟨R.val / 128, by omega⟩ : Fin 4) (⟨R.val % 128, Nat.mod_lt _ (by decide)⟩ : Fin 128) o hN
  have hrow : Cert.Spec.rowOf (⟨R.val / 128, by omega⟩ : Fin 4) (⟨R.val % 128, Nat.mod_lt _ (by decide)⟩ : Fin 128) = R :=
    Fin.ext (by show 128 * (R.val / 128) + R.val % 128 = R.val; omega)
  rw [hrow] at key
  rw [W3_v3, pair_out_apply, Pair.result_apply]
  exact (congrArg (· - Cert.Spec.one) key).trans (Cert.Spec.kernel_form (Cert.Spec.proj (xOf m c) (wOf m c)) R o)

end Cert.KernelIdeal.Val

end
-- ==== Proof.RefValue.lean ====
/-
  The reference's result array, read at an index: its mbd stage at (i, o) is the specification's feature of the
  projection of its two arguments.
-/
import proofs.«136051_j51926154609300_1_alg».proof.Proof.Gen.ReferenceIdeal.Read
import proofs.«136051_j51926154609300_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- An argument array as a function of its two coordinates. -/
abbrev xOf (x0 : (⟨S512x1024, .f32⟩ : BufTy).Contents (Elt Ideal)) : Fin 512 → Fin 1024 → EReal := fun b kk => x0 (ix2 b kk)
abbrev wOf (x1 : (⟨S500x1024, .f32⟩ : BufTy).Contents (Elt Ideal)) : Fin 500 → Fin 1024 → EReal := fun r kk => x1 (ix2 r kk)

/-! Index equations: the reference's composed index functions at explicit coordinates. -/

private theorem idx_v1_at (i : Fin 512) (o : Fin 100) (k : Fin 5) :
    idx_main_v1 (ix3 i o k) = ix2 i (⟨o.val * 5 + k.val, by have := o.isLt; have := k.isLt; omega⟩ : Fin 500) := by
  have hi := i.isLt; have ho := o.isLt; have hk := k.isLt
  funext a; apply Fin.ext
  match a with
  | ⟨0, _⟩ => show ((i.val * 100 + o.val) * 5 + k.val) / 500 = i.val; omega
  | ⟨1, _⟩ => show ((i.val * 100 + o.val) * 5 + k.val) % 500 = o.val * 5 + k.val; omega

private theorem lidx_v0_at (i : Fin 512) (r : Fin 500) (kk : Fin 1024) :
    lidx_main_v0 (ix2 i r) kk = ix2 i kk :=
  funext fun a => Fin.ext (by match a with | ⟨0, _⟩ => rfl | ⟨1, _⟩ => rfl)

private theorem ridx_v0_at (i : Fin 512) (r : Fin 500) (kk : Fin 1024) :
    ridx_main_v0 (ix2 i r) kk = ix2 r kk :=
  funext fun a => Fin.ext (by match a with | ⟨0, _⟩ => rfl | ⟨1, _⟩ => rfl)

private theorem idx_v24_at (i j : Fin 512) (o : Fin 100) (k : Fin 5) :
    idx_main_v2 (idx_main_v4 (ix4 i j o k)) = ix3 i o k :=
  funext fun a => Fin.ext (by match a with | ⟨0, _⟩ => rfl | ⟨1, _⟩ => rfl | ⟨2, _⟩ => rfl)

private theorem idx_v35_at (i j : Fin 512) (o : Fin 100) (k : Fin 5) :
    idx_main_v3 (idx_main_v5 (ix4 i j o k)) = ix3 j o k :=
  funext fun a => Fin.ext (by match a with | ⟨0, _⟩ => rfl | ⟨1, _⟩ => rfl | ⟨2, _⟩ => rfl)

private theorem idx_v8_at (i j : Fin 512) (o : Fin 100) (k : Fin 5) :
    idx_main_v8 (ix3 i j o) k = ix4 i j o k :=
  funext fun a => Fin.ext (by match a with | ⟨0, _⟩ => rfl | ⟨1, _⟩ => rfl | ⟨2, _⟩ => rfl | ⟨3, _⟩ => rfl)

private theorem idx_v11_at (i : Fin 512) (o : Fin 100) (j : Fin 512) :
    idx_main_v11 (ix2 i o) j = ix3 i j o :=
  funext fun a => Fin.ext (by match a with | ⟨0, _⟩ => rfl | ⟨1, _⟩ => rfl | ⟨2, _⟩ => rfl)

/-- The reshaped product at (i, o, k) is the projection. -/
private theorem v1_at (x0 : (⟨S512x1024, .f32⟩ : BufTy).Contents (Elt Ideal)) (x1 : (⟨S500x1024, .f32⟩ : BufTy).Contents (Elt Ideal))
    (i : Fin 512) (o : Fin 100) (k : Fin 5) :
    val_main_v1 (F := Ideal) x0 x1 (ix3 i o k) = Cert.Spec.proj (xOf x0) (wOf x1) i o k := by
  rw [val_main_v1_apply, idx_v1_at, val_main_v0_apply]
  simp only [lidx_v0_at, ridx_v0_at]
  rfl

/-- The absolute difference at (i, j, o, k). -/
private theorem v7_at (x0 : (⟨S512x1024, .f32⟩ : BufTy).Contents (Elt Ideal)) (x1 : (⟨S500x1024, .f32⟩ : BufTy).Contents (Elt Ideal))
    (i j : Fin 512) (o : Fin 100) (k : Fin 5) :
    val_main_v7 (F := Ideal) x0 x1 (ix4 i j o k)
      = Cert.Spec.adiff (Cert.Spec.proj (xOf x0) (wOf x1) i o k) (Cert.Spec.proj (xOf x0) (wOf x1) j o k) := by
  rw [val_main_v7_apply, val_main_v6_apply, val_main_v4_apply, val_main_v5_apply, val_main_v2_apply, val_main_v3_apply,
    idx_v24_at, idx_v35_at, v1_at, v1_at]
  rfl

/-- The exponential stage at (i, j, o). -/
private theorem v10_at (x0 : (⟨S512x1024, .f32⟩ : BufTy).Contents (Elt Ideal)) (x1 : (⟨S500x1024, .f32⟩ : BufTy).Contents (Elt Ideal))
    (i j : Fin 512) (o : Fin 100) :
    val_main_v10 (F := Ideal) x0 x1 (ix3 i j o)
      = Ideal.exp (-(0 + ∑ k : Fin 5, Cert.Spec.adiff (Cert.Spec.proj (xOf x0) (wOf x1) i o k) (Cert.Spec.proj (xOf x0) (wOf x1) j o k))) := by
  rw [val_main_v10_apply, val_main_v9_apply, val_main_v8_apply, val_main_cst_apply]
  simp only [idx_v8_at, v7_at, Ideal.hostUnary_exp_def, Ideal.hostNegf_def, Ideal.negf_def, Ideal.ofBits_def, Ideal.ofBits_zero_f32]

/-- The reference's mbd stage at (i, o). -/
theorem ref_mbd (x0 : (⟨S512x1024, .f32⟩ : BufTy).Contents (Elt Ideal)) (x1 : (⟨S500x1024, .f32⟩ : BufTy).Contents (Elt Ideal)) (i : Fin 512) (o : Fin 100) :
    val_main_v13 (F := Ideal) x0 x1 (ix2 i o) = Cert.Spec.mbd (Cert.Spec.proj (xOf x0) (wOf x1)) i o := by
  rw [val_main_v13_apply, val_main_v12_apply, val_main_cst_1_apply, val_main_v11_apply, val_main_cst_0_apply]
  simp only [idx_v11_at, v10_at, Ideal.subf_def, Ideal.ofBits_def, Ideal.ofBits_zero_f32]
  exact Cert.Spec.ref_form _ i o

end Cert.ReferenceIdeal.RefValue

end
-- ==== Proof.lean ====
/-
  The certificate. Kernel: x·Wᵀ by one matmul region, reshaped and transposed on the host to p[b,k,o]; a second region
  over a 4×4 grid accumulates, for each block of 128 rows i and each block of 128 rows j in turn,
  Σ_j exp(0 − Σ_k |p[i,k,o] − p[j,k,o]|) into a scratch zeroed at the first column block, and at the last column
  block writes the accumulator less one; the host joins x with that array. Reference: the same quantity by whole-array
  host operations, mbd[i,o] = Σ_j exp(−Σ_k |p[i,o,k] − p[j,o,k]|) − 1.
  Over the extended reals the two agree: a matmul into zero is the host's dot_general, a change of float format is
  the identity, 0 − a = −a, and a sum of extended reals may be split into blocks and re-bracketed freely (addition is
  commutative and associative there, infinities included), so no finiteness of the inputs is used.
  The frames of the two kernel programs: each region's body is run at a generic grid point against the pipeline
  library's obligation (the pairwise body in its three control cases), the two input windows of the pairwise region
  holding one array at half a share each; the reference's frame is its host run. The idealization rewrote nothing.
-/
import proofs.«136051_j51926154609300_1_alg».proof.Defs
import proofs.«136051_j51926154609300_1_alg».proof.Proof.Gen.Kernel
import proofs.«136051_j51926154609300_1_alg».proof.Proof.Gen.KernelIdeal
import proofs.«136051_j51926154609300_1_alg».proof.Proof.Gen.ReferenceIdeal
import proofs.«136051_j51926154609300_1_alg».proof.Proof.Gen.Pre_finite_inputs
import proofs.«136051_j51926154609300_1_alg».proof.Proof.Gen.ReferenceIdeal.Run
import proofs.«136051_j51926154609300_1_alg».proof.Proof.Gen.ReferenceIdeal.Read
import proofs.«136051_j51926154609300_1_alg».proof.Proof.KB.Segments
import proofs.«136051_j51926154609300_1_alg».proof.Proof.KI.Segments
import proofs.«136051_j51926154609300_1_alg».proof.Proof.KI.RunValue
import proofs.«136051_j51926154609300_1_alg».proof.Proof.KI.Value
import proofs.«136051_j51926154609300_1_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level kernel program runs and leaves its arguments alone. -/
theorem frame_k : @Cert.frame_Kernel Cert.Kernel.Gen.facts Cert.Pre_finite_inputs.Gen.facts :=
  fun m ρ _ => Cert.Kernel.Run.frame m ρ

/-- So does the idealized kernel program. -/
theorem frame_ki : @Cert.frame_KernelIdeal Cert.KernelIdeal.Gen.facts Cert.Pre_finite_inputs.Gen.facts :=
  fun m ρ _ => Cert.KernelIdeal.Run.frame m ρ

/-- The reference is host operations only: its frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The reference's mbd stage and the kernel's pairwise output array are one function of arguments that agree. -/
theorem mbd_eq (m : (ℓ : Loc Cert.KernelIdeal.nD Cert.KernelIdeal.τ Cert.KernelIdeal.sig) → Buf (Elt Ideal) ℓ) (c : Dev Cert.KernelIdeal.nD) :
    Cert.ReferenceIdeal.Read.val_main_v13 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Run.W3 m c Cert.KernelIdeal.main_v3 := by
  funext i
  rw [eq_ix2 i]
  exact (Cert.ReferenceIdeal.RefValue.ref_mbd _ _ (i 0) (i 1)).trans (Cert.KernelIdeal.Val.mbd_value m c (i 0) (i 1)).symm

/-- Both idealized programs, from memories that agree on the arguments, end with the same result array. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Run.W4 m c Cert.KernelIdeal.main_v4, Cert.KernelIdeal.Run.run_value m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Run.W4 m c Cert.KernelIdeal.main_v4
  rw [Cert.ReferenceIdeal.Read.val_main_v14_eq, (hagree c).1, (hagree c).2, Cert.KernelIdeal.Val.final_v4]
  unfold Cert.ReferenceIdeal.Read.val_main_v14
  rw [mbd_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
